-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x24 : Shape := ⟨2, ![100000, 24]⟩
abbrev S2x1600000 : Shape := ⟨2, ![2, 1600000]⟩
abbrev S1600000x2 : Shape := ⟨2, ![1600000, 2]⟩
abbrev S24x128 : Shape := ⟨2, ![24, 128]⟩
abbrev S128 : Shape := ⟨1, ![128]⟩
abbrev S2x128 : Shape := ⟨2, ![2, 128]⟩
abbrev S128x128 : Shape := ⟨2, ![128, 128]⟩
abbrev S_ : Shape := ⟨0, ![]⟩

class Facts : Prop where
  bcast_S_S100000x24 : S_.BroadcastsInDim S100000x24 (![] : Fin 0 → Fin S100000x24.rank)
  reducesTo_S100000x24_S_d0_1 : S100000x24.ReducesTo [0, 1] S_
  h_S_ : 0 < S_.numel
  bcast_S_S1600000x2 : S_.BroadcastsInDim S1600000x2 (![] : Fin 0 → Fin S1600000x2.rank)
  reducesTo_S1600000x2_S_d0_1 : S1600000x2.ReducesTo [0, 1] S_
  bcast_S_S24x128 : S_.BroadcastsInDim S24x128 (![] : Fin 0 → Fin S24x128.rank)
  reducesTo_S24x128_S_d0_1 : S24x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S2x128 .f32) (main_arg6 : FVec F S128 .f32) (main_arg7 : FVec F S128x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S2x128 .f32 := Host.absf main_arg5
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x24 .f32) (main_arg1 : IVec S2x1600000 32) (main_arg2 : FVec F S1600000x2 .f32) (main_arg3 : FVec F S24x128 .f32) (main_arg4 : FVec F S128 .f32) (main_arg5 : FVec F S2x128 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S100000x24 .f32 := Host.absf main_arg0
  let main_cst : FVec F S_ .f32 := constant S_ .f32 0x7F800000#32
  let main_v1 : FVec F S100000x24 .f32 := broadcastInDim S100000x24 ![] bcast_S_S100000x24 main_cst
  let main_v2 : IVec S100000x24 1 := cmpf .olt main_v0 main_v1
  let main_c : IVec S_ 1 := constantI S_ 1 1#1
  let main_v3 : IVec S_ 1 := (fun x v => Host.reduce IntOp.andi x v reducesTo_S100000x24_S_d0_1 h_S_) main_v2 main_c
  let main_v4 : FVec F S1600000x2 .f32 := Host.absf main_arg2
  let main_cst_0 : FVec F S_ .f32 := constant S_ .f32 0x7F800000#32
  let main_v5 : FVec F S1600000x2 .f32 := broadcastInDim S1600000x2 ![] bcast_S_S1600000x2 main_cst_0
  let main_v6 : IVec S1600000x2 1 := cmpf .olt main_v4 main_v5
  let main_c_1 : IVec S_ 1 := constantI S_ 1 1#1
  let main_v7 : IVec S_ 1 := (fun x v => Host.reduce IntOp.andi x v reducesTo_S1600000x2_S_d0_1 h_S_) main_v6 main_c_1
  let main_v8 : IVec S_ 1 := andi main_v3 main_v7
  let main_v9 : FVec F S24x128 .f32 := Host.absf main_arg3
  let main_cst_2 : FVec F S_ .f32 := constant S_ .f32 0x7F800000#32
  let main_v10 : FVec F S24x128 .f32 := broadcastInDim S24x128 ![] bcast_S_S24x128 main_cst_2
  let main_v11 : IVec S24x128 1 := cmpf .olt main_v9 main_v10
  let main_c_3 : IVec S_ 1 := constantI S_ 1 1#1
  let main_v12 : IVec S_ 1 := (fun x v => Host.reduce IntOp.andi x v reducesTo_S24x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x24 : Shape := ⟨2, ![100000, 24]⟩
abbrev S2x1600000 : Shape := ⟨2, ![2, 1600000]⟩
abbrev S1600000x2 : Shape := ⟨2, ![1600000, 2]⟩
abbrev S24x128 : Shape := ⟨2, ![24, 128]⟩
abbrev S128 : Shape := ⟨1, ![128]⟩
abbrev S2x128 : Shape := ⟨2, ![2, 128]⟩
abbrev S128x128 : Shape := ⟨2, ![128, 128]⟩
abbrev S1x1600000 : Shape := ⟨2, ![1, 1600000]⟩
abbrev S1600000 : Shape := ⟨1, ![1600000]⟩
abbrev S1x128 : Shape := ⟨2, ![1, 128]⟩
abbrev S100000x128 : Shape := ⟨2, ![100000, 128]⟩
abbrev S10000x24 : Shape := ⟨2, ![10000, 24]⟩
abbrev S10000x128 : Shape := ⟨2, ![10000, 128]⟩
abbrev S1600000x128 : Shape := ⟨2, ![1600000, 128]⟩
abbrev S8000x2 : Shape := ⟨2, ![8000, 2]⟩
abbrev S8000x128 : Shape := ⟨2, ![8000, 128]⟩
abbrev S_ : Shape := ⟨0, ![]⟩
abbrev S1600000x1 : Shape := ⟨2, ![1600000, 1]⟩
abbrev S5000x128 : Shape := ⟨2, ![5000, 128]⟩

abbrev nBuf : Space → Nat
  | .hbm => 62
  | .vmem => 32
  | .smem => 0
  | _ => 0

abbrev bufTy : (tb : Table) → Fin (tcTables nBuf tb) → BufTy
  | .hbm, ⟨0, _⟩ => ⟨S100000x24, .f32⟩
  | .hbm, ⟨1, _⟩ => ⟨S2x1600000, .i32⟩
  | .hbm, ⟨2, _⟩ => ⟨S1600000x2, .f32⟩
  | .hbm, ⟨3, _⟩ => ⟨S24x128, .f32⟩
  | .hbm, ⟨4, _⟩ => ⟨S128, .f32⟩
  | .hbm, ⟨5, _⟩ => ⟨S2x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S1x128, .f32⟩
  | .hbm, ⟨16, _⟩ => ⟨S100000x128, .f32⟩
  | .hbm, ⟨17, _⟩ => ⟨S1x128, .f32⟩
  | .hbm, ⟨18, _⟩ => ⟨S1600000x128, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S1600000x128, .f32⟩
  | .hbm, ⟨29, _⟩ => ⟨S_, .f32⟩
  | .hbm, ⟨30, _⟩ => ⟨S1600000x128, .f32⟩
  | .hbm, ⟨31, _⟩ => ⟨S1600000x128, .f32⟩
  | .hbm, ⟨32, _⟩ => ⟨S_, .f32⟩
  | .hbm, ⟨33, _⟩ => ⟨S100000x128, .f32⟩
  | .hbm, ⟨34, _⟩ => ⟨S1600000x1, .i32⟩
  | .hbm, ⟨35, _⟩ => ⟨S100000x128, .f32⟩
  | .hbm, ⟨36, _⟩ => ⟨S1x128, .f32⟩
  | .hbm, ⟨37, _⟩ => ⟨S1x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S1600000x128, .f32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S1x128, .f32⟩
  | .hbm, ⟨60, _⟩ => ⟨S1x128, .f32⟩
  | .hbm, ⟨61, _⟩ => ⟨S100000x128, .f32⟩
  | .local _ .vmem, ⟨0, _⟩ => ⟨S10000x24, .f32⟩
  | .local _ .vmem, ⟨1, _⟩ => ⟨S10000x24, .f32⟩
  | .local _ .vmem, ⟨2, _⟩ => ⟨S24x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S8000x2, .f32⟩
  | .local _ .vmem, ⟨7, _⟩ => ⟨S8000x2, .f32⟩
  | .local _ .vmem, ⟨8, _⟩ => ⟨S2x128, .f32⟩
  | .local _ .vmem, ⟨9, _⟩ => ⟨S1x128, .f32⟩
  | .local _ .vmem, ⟨10, _⟩ => ⟨S8000x128, .f32⟩
  | .local _ .vmem, ⟨11, _⟩ => ⟨S8000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | _, _ => ⟨S100000x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call0_cst : Ref sig .tc := ⟨.hbm, 29, rfl⟩
abbrev main_call0_v0 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call1_cst : Ref sig .tc := ⟨.hbm, 39, rfl⟩
abbrev main_call1_v0 : Ref sig .tc := ⟨.hbm, 40, rfl⟩
abbrev main_v23 : Ref sig .tc := ⟨.hbm, 41, rfl⟩
abbrev main_c_1 : Ref sig .tc := ⟨.hbm, 42, rfl⟩
abbrev main_v24 : Ref sig .tc := ⟨.hbm, 43, rfl⟩
abbrev main_v25 : Ref sig .tc := ⟨.hbm, 44, rfl⟩
abbrev main_c_2 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call2_cst : Ref sig .tc := ⟨.hbm, 52, rfl⟩
abbrev main_call2_v0 : Ref sig .tc := ⟨.hbm, 53, rfl⟩
abbrev main_v32 : Ref sig .tc := ⟨.hbm, 54, rfl⟩
abbrev main_cst_3 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S24x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S128_S1x128 : S128.ShapeCasts S1x128
  inb_S10000x24_S10000x24_0_0 : ∀ a, (![0, 0] : Fin 2 → Nat) a + S10000x24.size a ≤ S10000x24.size a
  h_S10000x24 : 0 < S10000x24.numel
  bitsLt_bf16_f32 : FTy.bits .bf16 < FTy.bits .f32
  inb_S24x128_S24x128_0_0 : ∀ a, (![0, 0] : Fin 2 → Nat) a + S24x128.size a ≤ S24x128.size a
  h_S24x128 : 0 < S24x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  inb_S8000x2_S8000x2_0_0 : ∀ a, (![0, 0] : Fin 2 → Nat) a + S8000x2.size a ≤ S8000x2.size a
  h_S8000x2 : 0 < S8000x2.numel
  inb_S2x128_S2x128_0_0 : ∀ a, (![0, 0] : Fin 2 → Nat) a + S2x128.size a ≤ S2x128.size a
  h_S2x128 : 0 < S2x128.numel
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x128 : S_.BroadcastsInDim S1600000x128 (![] : Fin 0 → Fin S1600000x128.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  broadcasts_S1x128_S5000x128 : S1x128.Broadcasts S5000x128
  dot_S10000x24_S24x128_S10000x128_1_0_0_1_n_n_wf : DotDims.WF S10000x24 S24x128 S10000x128 [1] [0] [0] [1] [] []
  dot_S8000x2_S2x128_S8000x128_1_0_0_1_n_n_wf : DotDims.WF S8000x2 S2x128 S8000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x24.size a ≤ S100000x24.size a
  hwx0_0 : ∀ i : grid0.Coords, EltTy.bits .f32 = 32 ∨ (Rect.block (s := S100000x24) S10000x24.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S24x128.size a ≤ S24x128.size a
  hwx0_1 : ∀ i : grid0.Coords, EltTy.bits .f32 = 32 ∨ (Rect.block (s := S24x128) S24x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x2.size a ≤ S1600000x2.size a
  hwx1_0 : ∀ i : grid1.Coords, EltTy.bits .f32 = 32 ∨ (Rect.block (s := S1600000x2) S8000x2.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x128.size a ≤ S2x128.size a
  hwx1_1 : ∀ i : grid1.Coords, EltTy.bits .f32 = 32 ∨ (Rect.block (s := S2x128) S2x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S1600000x128.size a
  hwx1_3 : ∀ i : grid1.Coords, EltTy.bits .f32 = 32 ∨ (Rect.block (s := S1600000x128) S8000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)

variable [Facts₀]

def dot_S10000x24_S24x128_S10000x128_1_0_0_1_n_n : DotDims S10000x24 S24x128 S10000x128 where
  lhsContracting := [1]
  rhsContracting := [0]
  lhsNonContracting := [0]
  rhsNonContracting := [1]
  lhsBatch := []
  rhsBatch := []
  wf := dot_S10000x24_S24x128_S10000x128_1_0_0_1_n_n_wf
def dot_S8000x2_S2x128_S8000x128_1_0_0_1_n_n : DotDims S8000x2 S2x128 S8000x128 where
  lhsContracting := [1]
  rhsContracting := [0]
  lhsNonContracting := [0]
  rhsNonContracting := [1]
  lhsBatch := []
  rhsBatch := []
  wf := dot_S8000x2_S2x128_S8000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S10000x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S24x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S8000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S2x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v21) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v22) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v23) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v36) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v37) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v38) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x24 : Shape := ⟨2, ![100000, 24]⟩
abbrev S2x1600000 : Shape := ⟨2, ![2, 1600000]⟩
abbrev S1600000x2 : Shape := ⟨2, ![1600000, 2]⟩
abbrev S24x128 : Shape := ⟨2, ![24, 128]⟩
abbrev S128 : Shape := ⟨1, ![128]⟩
abbrev S2x128 : Shape := ⟨2, ![2, 128]⟩
abbrev S128x128 : Shape := ⟨2, ![128, 128]⟩
abbrev S1x1600000 : Shape := ⟨2, ![1, 1600000]⟩
abbrev S1600000 : Shape := ⟨1, ![1600000]⟩
abbrev S100000x128 : Shape := ⟨2, ![100000, 128]⟩
abbrev S1x128 : Shape := ⟨2, ![1, 128]⟩
abbrev S1600000x128 : Shape := ⟨2, ![1600000, 128]⟩
abbrev S_ : Shape := ⟨0, ![]⟩
abbrev S1600000x1 : Shape := ⟨2, ![1600000, 1]⟩

abbrev nBuf : Space → Nat
  | .hbm => 84
  | .vmem => 0
  | .smem => 0
  | _ => 0

abbrev bufTy : (tb : Table) → Fin (tcTables nBuf tb) → BufTy
  | .hbm, ⟨0, _⟩ => ⟨S100000x24, .f32⟩
  | .hbm, ⟨1, _⟩ => ⟨S2x1600000, .i32⟩
  | .hbm, ⟨2, _⟩ => ⟨S1600000x2, .f32⟩
  | .hbm, ⟨3, _⟩ => ⟨S24x128, .f32⟩
  | .hbm, ⟨4, _⟩ => ⟨S128, .f32⟩
  | .hbm, ⟨5, _⟩ => ⟨S2x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000x128, .f32⟩
  | .hbm, ⟨16, _⟩ => ⟨S1x128, .f32⟩
  | .hbm, ⟨17, _⟩ => ⟨S100000x128, .f32⟩
  | .hbm, ⟨18, _⟩ => ⟨S100000x128, .f32⟩
  | .hbm, ⟨19, _⟩ => ⟨S1600000x128, .f32⟩
  | .hbm, ⟨20, _⟩ => ⟨S1x128, .f32⟩
  | .hbm, ⟨21, _⟩ => ⟨S1600000x128, .f32⟩
  | .hbm, ⟨22, _⟩ => ⟨S1600000x128, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S1600000x128, .f32⟩
  | .hbm, ⟨33, _⟩ => ⟨S_, .f32⟩
  | .hbm, ⟨34, _⟩ => ⟨S1600000x128, .f32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000x128, .f32⟩
  | .hbm, ⟨54, _⟩ => ⟨S100000x128, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x128, .f32⟩
  | .hbm, ⟨64, _⟩ => ⟨S1600000x128, .f32⟩
  | .hbm, ⟨65, _⟩ => ⟨S_, .f32⟩
  | .hbm, ⟨66, _⟩ => ⟨S1600000x128, .f32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | _, _ => ⟨S100000x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_cst : Ref sig .tc := ⟨.hbm, 33, rfl⟩
abbrev main_call0_v0 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call1_cst : Ref sig .tc := ⟨.hbm, 52, rfl⟩
abbrev main_call1_v0 : Ref sig .tc := ⟨.hbm, 53, rfl⟩
abbrev main_v35 : Ref sig .tc := ⟨.hbm, 54, rfl⟩
abbrev main_c_2 : Ref sig .tc := ⟨.hbm, 55, rfl⟩
abbrev main_v36 : Ref sig .tc := ⟨.hbm, 56, rfl⟩
abbrev main_v37 : Ref sig .tc := ⟨.hbm, 57, rfl⟩
abbrev main_c_3 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call2_cst : Ref sig .tc := ⟨.hbm, 65, rfl⟩
abbrev main_call2_v0 : Ref sig .tc := ⟨.hbm, 66, rfl⟩
abbrev main_v44 : Ref sig .tc := ⟨.hbm, 67, rfl⟩
abbrev main_cst_4 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_5 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S1600000x128_0_1 : S1x128.BroadcastsInDim S1600000x128 (![0, 1] : Fin 2 → Fin S1600000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x128 : S_.BroadcastsInDim S1600000x128 (![] : Fin 0 → Fin S1600000x128.rank)
  bcast_S_S100000x128 : S_.BroadcastsInDim S100000x128 (![] : Fin 0 → Fin S100000x128.rank)
  dot_S100000x24_S24x128_S100000x128_1_0_0_1_n_n_wf : DotDims.WF S100000x24 S24x128 S100000x128 [1] [0] [0] [1] [] []
  dot_S1600000x2_S2x128_S1600000x128_1_0_0_1_n_n_wf : DotDims.WF S1600000x2 S2x128 S1600000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def dot_S100000x24_S24x128_S100000x128_1_0_0_1_n_n : DotDims S100000x24 S24x128 S100000x128 where
  lhsContracting := [1]
  rhsContracting := [0]
  lhsNonContracting := [0]
  rhsNonContracting := [1]
  lhsBatch := []
  rhsBatch := []
  wf := dot_S100000x24_S24x128_S100000x128_1_0_0_1_n_n_wf
def dot_S1600000x2_S2x128_S1600000x128_1_0_0_1_n_n : DotDims S1600000x2 S2x128 S1600000x128 where
  lhsContracting := [1]
  rhsContracting := [0]
  lhsNonContracting := [0]
  rhsNonContracting := [1]
  lhsBatch := []
  rhsBatch := []
  wf := dot_S1600000x2_S2x128_S1600000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The mathematics both programs compute, as functions of whole arrays over the extended reals.

  A graph network of the GINE kind on N nodes and E edges with hidden width 128. Node features `x : N × 24` and
  edge features `ea : E × 2` are first mapped affinely to width 128 (`lin`: a matrix product plus a bias row). One
  round of message passing takes node states `h` and edge states `e`, forms an aggregate `agg h e : N × 128` (each
  edge's message is the positive part of its source node's state plus the edge state, summed at its destination
  node), and passes `h + agg h e` through a two-layer perceptron with a positive part in between (`upd`). The
  network is two such rounds sharing their weights, with a positive part of the node states between the rounds.

  Every function here is ROW-LOCAL: row `p` of the result depends on row `p` of the row-indexed operands only, and on
  the whole of the small weight matrices and bias rows. That is what lets a row-tiled evaluation, block of rows by
  block of rows, agree with the evaluation of the whole arrays at once (`lin_block`, `upd_block`).

  The aggregation and the positive part between the rounds are PARAMETERS of `net`: both programs apply the same
  gather / scatter-add and the same maximum with zero to whole arrays, so they are carried as functions and never opened.
-/
import Idealize.ShloMosaic.PureOps.Ideal
import Idealize.ShloMosaic.Lib.ValueIdx

noncomputable section

open Idealize.ShloMosaic Idealize.ShloMosaic.ValueIdx
open scoped BigOperators

namespace Gine

/-- An `a × b` array of extended reals, indexed by the literal rank-2 shape. -/
abbrev Mat (a b : Nat) : Type := (⟨2, ![a, b]⟩ : Shape).Idx → EReal

/-- The zero of the positive part, as the f32 zero word read at the ideal values. -/
abbrev zero32 : EReal := Ideal.ofBits .f32 0x00000000#32

/-- An index's row, typed by the literal extent. -/
abbrev row {a b : Nat} (i : (⟨2, ![a, b]⟩ : Shape).Idx) : Fin a := ⟨(i 0).val, idx2_lt0 i⟩
/-- An index's column, typed by the literal extent. -/
abbrev col {a b : Nat} (i : (⟨2, ![a, b]⟩ : Shape).Idx) : Fin b := ⟨(i 1).val, idx2_lt1 i⟩

/-- The affine layer `x · w + b`: entry `(p, q)` is `∑ₖ x(p, k) · w(k, q) + b(0, q)`, the bias a single row. -/
def lin {M K : Nat} (x : Mat M K) (w : Mat K 128) (b : Mat 1 128) : Mat M 128 :=
  fun i => (∑ k : Fin K, x (ix2 (row i) k) * w (ix2 k (col i))) + b (ix2 (0 : Fin 1) (col i))

theorem lin_apply {M K : Nat} (x : Mat M K) (w : Mat K 128) (b : Mat 1 128) (p : Fin M) (q : Fin 128) :
    lin x w b (ix2 p q) = (∑ k : Fin K, x (ix2 p k) * w (ix2 k q)) + b (ix2 (0 : Fin 1) q) := rfl

/-- The hidden activation of the update: the positive part of the affine image of `h + agg`. -/
def hidden {M : Nat} (h agg : Mat M 128) (W1 : Mat 128 128) (b1 : Mat 1 128) : Mat M 128 :=
  fun i => max (lin (fun j => h j + agg j) W1 b1 i) zero32

theorem hidden_apply {M : Nat} (h agg : Mat M 128) (W1 : Mat 128 128) (b1 : Mat 1 128) (p : Fin M) (q : Fin 128) :
    hidden h agg W1 b1 (ix2 p q)
      = max ((∑ k : Fin 128, (h (ix2 p k) + agg (ix2 p k)) * W1 (ix2 k q)) + b1 (ix2 (0 : Fin 1) q)) zero32 := rfl

/-- The node update `relu((h + agg) · W1 + b1) · W2 + b2`. -/
def upd {M : Nat} (h agg : Mat M 128) (W1 : Mat 128 128) (b1 : Mat 1 128) (W2 : Mat 128 128) (b2 : Mat 1 128) : Mat M 128 :=
  lin (hidden h agg W1 b1) W2 b2

theorem upd_apply {M : Nat} (h agg : Mat M 128) (W1 : Mat 128 128) (b1 : Mat 1 128) (W2 : Mat 128 128) (b2 : Mat 1 128)
    (p : Fin M) (q : Fin 128) :
    upd h agg W1 b1 W2 b2 (ix2 p q)
      = (∑ k : Fin 128, hidden h agg W1 b1 (ix2 p k) * W2 (ix2 k q)) + b2 (ix2 (0 : Fin 1) q) := rfl

/-- Row-locality of the affine layer: if row `p'` of `x'` is row `p` of `x`, the two images agree there. -/
theorem lin_block {M M' K : Nat} (x : Mat M K) (x' : Mat M' K) (w : Mat K 128) (b : Mat 1 128) (p : Fin M) (p' : Fin M')
    (q : Fin 128) (hx : ∀ k : Fin K, x' (ix2 p' k) = x (ix2 p k)) :
    lin x' w b (ix2 p' q) = lin x w b (ix2 p q) := by
  rw [lin_apply, lin_apply]
  exact congrArg (· + b (ix2 (0 : Fin 1) q)) (Finset.sum_congr rfl fun k _ => by rw [hx k])

/-- Row-locality of the hidden activation. -/
theorem hidden_block {M M' : Nat} (h agg : Mat M 128) (h' agg' : Mat M' 128) (W1 : Mat 128 128) (b1 : Mat 1 128)
    (p : Fin M) (p' : Fin M') (q : Fin 128) (hh : ∀ k : Fin 128, h' (ix2 p' k) = h (ix2 p k))
    (ha : ∀ k : Fin 128, agg' (ix2 p' k) = agg (ix2 p k)) :
    hidden h' agg' W1 b1 (ix2 p' q) = hidden h agg W1 b1 (ix2 p q) := by
  rw [hidden_apply, hidden_apply]
  refine congrArg (fun t => max (t + b1 (ix2 (0 : Fin 1) q)) zero32) (Finset.sum_congr rfl fun k _ => ?_)
  rw [hh k, ha k]

/-- Row-locality of the node update. -/
theorem upd_block {M M' : Nat} (h agg : Mat M 128) (h' agg' : Mat M' 128) (W1 : Mat 128 128) (b1 : Mat 1 128)
    (W2 : Mat 128 128) (b2 : Mat 1 128) (p : Fin M) (p' : Fin M') (q : Fin 128)
    (hh : ∀ k : Fin 128, h' (ix2 p' k) = h (ix2 p k)) (ha : ∀ k : Fin 128, agg' (ix2 p' k) = agg (ix2 p k)) :
    upd h' agg' W1 b1 W2 b2 (ix2 p' q) = upd h agg W1 b1 W2 b2 (ix2 p q) := by
  unfold upd
  exact lin_block _ _ W2 b2 p p' q fun k => hidden_block h agg h' agg' W1 b1 p p' k hh ha

/-- One round: the update of the node states by their aggregate over the edges. -/
def conv {N E : Nat} (agg : Mat N 128 → Mat E 128 → Mat N 128) (h : Mat N 128) (e : Mat E 128)
    (W1 : Mat 128 128) (b1 : Mat 1 128) (W2 : Mat 128 128) (b2 : Mat 1 128) : Mat N 128 :=
  upd h (agg h e) W1 b1 W2 b2

/-- The network: both feature maps, a round, the positive part `relu` of the node states, a second round with the
    same weights and the same edge states. -/
def net {N E : Nat} (agg : Mat N 128 → Mat E 128 → Mat N 128) (relu : Mat N 128 → Mat N 128)
    (x : Mat N 24) (ea : Mat E 2) (Win : Mat 24 128) (bin : Mat 1 128) (We : Mat 2 128) (be : Mat 1 128)
    (W1 : Mat 128 128) (b1 : Mat 1 128) (W2 : Mat 128 128) (b2 : Mat 1 128) : Mat N 128 :=
  conv agg (relu (conv agg (lin x Win bin) (lin ea We be) W1 b1 W2 b2)) (lin ea We be) W1 b1 W2 b2

end Gine

end
-- ==== Proof.Glue.lean ====
/-
  The host-side pieces of the kernel's program, as functions of whole arrays at the ideal values: the edge list's two
  rows, the aggregation of one round of message passing, the positive part between the rounds, and a bias vector
  laid out as a single row. Each is the composite of the program's own host operations, kept folded: the value
  proof carries them as opaque functions and only ever compares them with the reference's, operation for operation.
-/
import proofs.«136925_j70463233458547_1_alg».proof.Proof.Gen.KernelIdeal
import proofs.«136925_j70463233458547_1_alg».proof.Proof.Spec

noncomputable section

namespace Cert.KernelIdeal.Glue

open Cert.KernelIdeal Cert.KernelIdeal.Gen Idealize.ShloMosaic Idealize.ShloMosaic.TcCoe

/-- The source node of every edge: row 0 of the edge list, as a vector. -/
def src (ei : (⟨S2x1600000, .i32⟩ : BufTy).Contents (Elt Ideal)) : (⟨S1600000, .i32⟩ : BufTy).Contents (Elt Ideal) :=
  shapeCast _ (extractStridedSlice S1x1600000 ![0, 0] ei slices_S2x1600000_S1x1600000_0_0) shapeCasts_S1x1600000_S1600000

/-- The destination node of every edge: row 1 of the edge list, as a vector. -/
def dst (ei : (⟨S2x1600000, .i32⟩ : BufTy).Contents (Elt Ideal)) : (⟨S1600000, .i32⟩ : BufTy).Contents (Elt Ideal) :=
  shapeCast _ (extractStridedSlice S1x1600000 ![1, 0] ei slices_S2x1600000_S1x1600000_1_0) shapeCasts_S1x1600000_S1600000

/-- The gather's index column: each source index, a negative one counted from the end (plus the node count). -/
def srcCol (ei : (⟨S2x1600000, .i32⟩ : BufTy).Contents (Elt Ideal)) : (⟨S1600000x1, .i32⟩ : BufTy).Contents (Elt Ideal) :=
  broadcastInDim S1600000x1 ![0] bcast_S1600000_S1600000x1_0
    (select (cmpi .slt (src ei) (broadcastInDim S1600000 ![] bcast_S_S1600000 (constantI S_ 32 0#32)))
      (addi (src ei) (broadcastInDim S1600000 ![] bcast_S_S1600000 (constantI S_ 32 100000#32))) (src ei))

/-- The scatter's index column: each destination index. -/
def dstCol (ei : (⟨S2x1600000, .i32⟩ : BufTy).Contents (Elt Ideal)) : (⟨S1600000x1, .i32⟩ : BufTy).Contents (Elt Ideal) :=
  broadcastInDim S1600000x1 ![0] bcast_S1600000_S1600000x1_0 (dst ei)

/-- One round's aggregate: every edge's message `max (h[src] + e) 0`, summed into its destination node's row. -/
def agg (ei : (⟨S2x1600000, .i32⟩ : BufTy).Contents (Elt Ideal)) (h : (⟨S100000x128, .f32⟩ : BufTy).Contents (Elt Ideal))
    (e : (⟨S1600000x128, .f32⟩ : BufTy).Contents (Elt Ideal)) : (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32)) (dstCol ei)
    (maximumf (addf (Host.gather gather_S100000x128_S1600000x1_S1600000x128_1_0_n_n_0_1_1128 h (srcCol ei)) e)
      (broadcastInDim S1600000x128 ![] bcast_S_S1600000x128 (constant (F := Ideal) S_ .f32 0x00000000#32)))

/-- The positive part of the node states between the two rounds. -/
def relu (h : (⟨S100000x128, .f32⟩ : BufTy).Contents (Elt Ideal)) : (⟨S100000x128, .f32⟩ : BufTy).Contents (Elt Ideal) :=
  maximumf h (broadcastInDim S100000x128 ![] bcast_S_S100000x128 (constant (F := Ideal) S_ .f32 0x00000000#32))

/-- A bias vector laid out as one row. -/
def rowOf (b : (⟨S128, .f32⟩ : BufTy).Contents (Elt Ideal)) : (⟨S1x128, .f32⟩ : BufTy).Contents (Elt Ideal) :=
  shapeCast _ b shapeCasts_S128_S1x128

end Cert.KernelIdeal.Glue

end
-- ==== Proof.Region0.lean ====
/-
  The first pallas_call's value. The node features are cut into ten blocks of 10000 rows; at each block the body
  computes `block · W_in + b_in` (the product into a zero accumulator, the bias row spread over the rows) and writes it
  back as the same block of rows of the result. The affine layer is row-local, so the result array, whatever the
  region finds in its three operand arrays, is the affine layer of the whole operand arrays.
-/
import proofs.«136925_j70463233458547_1_alg».proof.Proof.Gen.KernelIdeal.Frame
import proofs.«136925_j70463233458547_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! ## The product into a zero accumulator, entry by entry -/

/-- Row axis of the left operand: the result's row. -/
theorem lhs_dot_0 (i : S10000x128.Idx) (q : dot_S10000x24_S24x128_S10000x128_1_0_0_1_n_n.contr.Idx) :
    (dot_S10000x24_S24x128_S10000x128_1_0_0_1_n_n.lhsIdx i q 0).val = (i 0).val := by
  unfold DotDims.lhsIdx
  rw [dif_neg (show ¬(0 : Fin S10000x24.rank) ∈ dot_S10000x24_S24x128_S10000x128_1_0_0_1_n_n.lhsBatch by decide),
    dif_pos (show (0 : Fin S10000x24.rank) ∈ dot_S10000x24_S24x128_S10000x128_1_0_0_1_n_n.lhsNonContracting by decide)]
  rfl

/-- Column axis of the left operand: the summation index. -/
theorem lhs_dot_1 (i : S10000x128.Idx) (q : dot_S10000x24_S24x128_S10000x128_1_0_0_1_n_n.contr.Idx) :
    (dot_S10000x24_S24x128_S10000x128_1_0_0_1_n_n.lhsIdx i q 1).val = (q ⟨0, by decide⟩).val :=
  dot_S10000x24_S24x128_S10000x128_1_0_0_1_n_n.lhsIdx_val_of_single rfl i q

/-- Row axis of the right operand: the summation index. -/
theorem rhs_dot_0 (i : S10000x128.Idx) (q : dot_S10000x24_S24x128_S10000x128_1_0_0_1_n_n.contr.Idx) :
    (dot_S10000x24_S24x128_S10000x128_1_0_0_1_n_n.rhsIdx i q 0).val = (q ⟨0, by decide⟩).val :=
  dot_S10000x24_S24x128_S10000x128_1_0_0_1_n_n.rhsIdx_val_of_single rfl i q

/-- Column axis of the right operand: the result's column. -/
theorem rhs_dot_1 (i : S10000x128.Idx) (q : dot_S10000x24_S24x128_S10000x128_1_0_0_1_n_n.contr.Idx) :
    (dot_S10000x24_S24x128_S10000x128_1_0_0_1_n_n.rhsIdx i q 1).val = (i 1).val := by
  unfold DotDims.rhsIdx
  rw [dif_neg (show ¬(1 : Fin S24x128.rank) ∈ dot_S10000x24_S24x128_S10000x128_1_0_0_1_n_n.rhsBatch by decide),
    dif_pos (show (1 : Fin S24x128.rank) ∈ dot_S10000x24_S24x128_S10000x128_1_0_0_1_n_n.rhsNonContracting by decide)]
  rfl

/-- Entry `(p, q)` of the block product started from zero is `∑ₖ lhs(p, k) · rhs(k, q)`. -/
theorem matmul_at {φ₁ φ₂ : FTy} (lhs : FVec Ideal S10000x24 φ₁) (rhs : FVec Ideal S24x128 φ₂) (p : Fin 10000) (q : Fin 128) :
    matmul (F := Ideal) dot_S10000x24_S24x128_S10000x128_1_0_0_1_n_n none lhs rhs
        (constant (F := Ideal) S10000x128 .f32 0x00000000#32) (ix2 p q)
      = ∑ k : Fin 24, lhs (ix2 p k) * rhs (ix2 k q) := by
  show FloatOps.matmul (F := Ideal) dot_S10000x24_S24x128_S10000x128_1_0_0_1_n_n none lhs rhs
        (constant (F := Ideal) S10000x128 .f32 0x00000000#32) (ix2 p q) = _
  rw [Ideal.matmul_constant_zero_apply,
    ← Equiv.sum_comp (contrEquiv1 dot_S10000x24_S24x128_S10000x128_1_0_0_1_n_n 24 rfl rfl).symm]
  refine Finset.sum_congr rfl fun k _ => ?_
  have hk := contrEquiv1_symm_val dot_S10000x24_S24x128_S10000x128_1_0_0_1_n_n 24 rfl rfl k
  have el : dot_S10000x24_S24x128_S10000x128_1_0_0_1_n_n.lhsIdx (ix2 p q)
      ((contrEquiv1 dot_S10000x24_S24x128_S10000x128_1_0_0_1_n_n 24 rfl rfl).symm k) = ix2 p k :=
    funext fun a => Fin.ext (by
      match a with
      | ⟨0, _⟩ => exact lhs_dot_0 _ _
      | ⟨1, _⟩ => exact (lhs_dot_1 _ _).trans hk)
  have er : dot_S10000x24_S24x128_S10000x128_1_0_0_1_n_n.rhsIdx (ix2 p q)
      ((contrEquiv1 dot_S10000x24_S24x128_S10000x128_1_0_0_1_n_n 24 rfl rfl).symm k) = ix2 k q :=
    funext fun a => Fin.ext (by
      match a with
      | ⟨0, _⟩ => exact (rhs_dot_0 _ _).trans hk
      | ⟨1, _⟩ => exact rhs_dot_1 _ _)
  rw [el, er]

/-! ## The body's arithmetic is the affine layer of its three blocks -/

/-- The payload — product of the block with the weights from a zero accumulator, plus the bias row spread over the
    rows — is the affine layer of the loaded blocks. The format changes are the identity on extended reals. -/
theorem pay_eq (x0 : Vec Ideal S10000x24 .f32) (x1 : Vec Ideal S24x128 .f32) (x2 : Vec Ideal S1x128 .f32) :
    k0_pay1 (F := Ideal) x0 x1 x2 = Gine.lin x0 x1 x2 := by
  funext j
  obtain ⟨p, q, rfl⟩ : ∃ (p : Fin 10000) (q : Fin 128), j = ix2 p q := ⟨j 0, j 1, eq_ix2 j⟩
  unfold k0_pay1
  rw [Gine.lin_apply, addf_apply, matmul_at, shapeCast_self, broadcastTo_1b_ab_apply]
  simp only [truncf_apply]

/-! ## Each window's block, read off the array it is cut from -/

theorem zero_offsets : (![0, 0] : Fin 2 → Nat) = fun _ => 0 := funext fun a => by fin_cases a <;> rfl

/-- The grid has ten points. -/
theorem grid_points : grid0.N = 10 := by decide

/-- The block indices at point `t`: the row-tiled operand and the result sit at block row `t`, block column `0`; the
    weights and the bias row are their whole arrays, at block `(0, 0)`. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the operand's block at point `t` is row `t · 10000 + p` of the operand. -/
theorem rows_read (c : Dev nD) (t : Fin cfg0.N) (p : Fin 10000) (k : Fin 24)
    (hr : t.val * 10000 + p.val < 100000) :
    (iblk0 (F := Ideal) V c 0 t : Vec Ideal S10000x24 .f32) (ix2 p k)
      = V c main_arg0 (ix2 (⟨t.val * 10000 + p.val, hr⟩ : Fin 100000) k) := by
  unfold iblk0
  show V c main_arg0 (((cfg0.win 0).blk t).view.emb (ix2 p k)) = _
  refine congrArg (V c main_arg0) (funext fun a => Fin.ext ?_)
  obtain ⟨e0, e1, -⟩ := block_indices t
  match a with
  | ⟨0, _⟩ =>
    show win0_0.index t (0 : Fin 2) * 10000 + 1 * p.val = t.val * 10000 + p.val
    rw [e0]; omega
  | ⟨1, _⟩ =>
    show win0_0.index t (1 : Fin 2) * 24 + 1 * k.val = k.val
    rw [e1]; omega

/-- The weights' block is the whole weight matrix, at every point. -/
theorem weights_read (c : Dev nD) (t : Fin cfg0.N) :
    (iblk0 (F := Ideal) V c 1 t : Vec Ideal S24x128 .f32) = V c main_arg3 := by
  unfold iblk0
  funext y
  show V c main_arg3 (((cfg0.win 1).blk t).view.emb y) = V c main_arg3 y
  refine congrArg (V c main_arg3) (funext fun a => Fin.ext ?_)
  obtain ⟨-, -, e0, e1, -⟩ := block_indices t
  match a with
  | ⟨0, _⟩ =>
    show win0_1.index t (0 : Fin 2) * 24 + 1 * (y 0).val = (y 0).val
    rw [e0]; omega
  | ⟨1, _⟩ =>
    show win0_1.index t (1 : Fin 2) * 128 + 1 * (y 1).val = (y 1).val
    rw [e1]; omega

/-- The bias window's block is the whole bias row, at every point. -/
theorem bias_read (c : Dev nD) (t : Fin cfg0.N) :
    (iblk0 (F := Ideal) V c 2 t : Vec Ideal S1x128 .f32) = V c main_v4 := by
  unfold iblk0
  funext y
  show V c main_v4 (((cfg0.win 2).blk t).view.emb y) = V c main_v4 y
  refine congrArg (V c main_v4) (funext fun a => Fin.ext ?_)
  obtain ⟨-, -, -, -, e0, e1, -⟩ := block_indices t
  match a with
  | ⟨0, _⟩ =>
    show win0_2.index t (0 : Fin 2) * 1 + 1 * (y 0).val = (y 0).val
    rw [e0]; omega
  | ⟨1, _⟩ =>
    show win0_2.index t (1 : Fin 2) * 128 + 1 * (y 1).val = (y 1).val
    rw [e1]; omega

/-- Entry `(p, q)` of the result's block at point `t` sits at `(t · 10000 + p, q)` in the result array. -/
theorem result_at (t : Fin cfg0.N) (p : Fin 10000) (q : Fin 128) (hr : t.val * 10000 + p.val < 100000) :
    ((cfg0.win 3).blk t).view.emb (ix2 p q) = ix2 (⟨t.val * 10000 + p.val, hr⟩ : Fin 100000) q := by
  refine funext fun a => Fin.ext ?_
  obtain ⟨-, -, -, -, -, -, e0, e1⟩ := block_indices t
  match a with
  | ⟨0, _⟩ =>
    show win0_3.index t (0 : Fin 2) * 10000 + 1 * p.val = t.val * 10000 + p.val
    rw [e0]; omega
  | ⟨1, _⟩ =>
    show win0_3.index t (1 : Fin 2) * 128 + 1 * q.val = q.val
    rw [e1]; omega

/-! ## What a point writes back is its block of the affine layer of the whole arrays -/

theorem flushed_eq (c : Dev nD) (t : Fin cfg0.N) :
    (dat0 (F := Ideal) V c).flushed 3 t
      = ((cfg0.win 3).blk t).view.read (Elt Ideal) (Gine.lin (V c main_arg0) (V c main_arg3) (V c main_v4)) := by
  show (cfg0.win 3).cut (grid0.coords t) ((dat0 (F := Ideal) V c).after 3 t) = _
  rw [after0_3]
  unfold out0_3
  rw [View.canon_unit_zero zero_offsets]
  simp only [View.ld_unit_zero (S := S10000x24) zero_offsets, View.ld_unit_zero (S := S24x128) zero_offsets,
    View.ld_unit_zero (S := S1x128) zero_offsets]
  rw [pay_eq, weights_read, bias_read]
  funext j
  obtain ⟨p, q, rfl⟩ : ∃ (p : Fin 10000) (q : Fin 128), j = ix2 p q := ⟨j 0, j 1, eq_ix2 j⟩
  have ht : t.val < 10 := lt_of_lt_of_eq t.isLt grid_points
  have hr : t.val * 10000 + p.val < 100000 := by have := p.isLt; omega
  show Gine.lin (iblk0 (F := Ideal) V c 0 t : Vec Ideal S10000x24 .f32) (V c main_arg3) (V c main_v4) (ix2 p q)
    = Gine.lin (V c main_arg0) (V c main_arg3) (V c main_v4) (((cfg0.win 3).blk t).view.emb (ix2 p q))
  rw [result_at t p q hr]
  exact Gine.lin_block _ _ _ _ (⟨t.val * 10000 + p.val, hr⟩ : Fin 100000) p q fun k => rows_read V c t p k hr

/-! ## The ten blocks of rows tile the result array -/

/-- An index of the result array is in point `t`'s block iff each coordinate is in the block's range on its axis. -/
theorem mem_blk (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v5).slice (win0_3.rect t)).set ↔ _
  rw [View.set_slice_whole, Rect.mem_set_unit]
  exact Iff.rfl

/-- Row `r` lies in the block of point `r / 10000`, and every point writes its block back. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : (i 0).val / 10000 < cfg0.N := by
    show (i 0).val / 10000 < grid0.N
    rw [grid_points]; omega
  refine ⟨⟨(i 0).val / 10000, hN⟩, flush0_3 _, ?_⟩
  rw [mem_blk]
  obtain ⟨-, -, -, -, -, -, e0, e1⟩ := block_indices ⟨(i 0).val / 10000, hN⟩
  intro a
  match a with
  | ⟨0, _⟩ =>
    show win0_3.index ⟨(i 0).val / 10000, hN⟩ (0 : Fin 2) * 10000 ≤ (i 0).val
      ∧ (i 0).val < win0_3.index ⟨(i 0).val / 10000, hN⟩ (0 : Fin 2) * 10000 + 10000
    rw [e0]
    show (i 0).val / 10000 * 10000 ≤ (i 0).val ∧ (i 0).val < (i 0).val / 10000 * 10000 + 10000
    omega
  | ⟨1, _⟩ =>
    show win0_3.index ⟨(i 0).val / 10000, hN⟩ (1 : Fin 2) * 128 ≤ (i 1).val
      ∧ (i 1).val < win0_3.index ⟨(i 0).val / 10000, hN⟩ (1 : Fin 2) * 128 + 128
    rw [e1]
    omega

/-- After the region, its result array is the affine layer of the arrays the region found. -/
theorem value (c : Dev nD) :
    (dat0 (F := Ideal) V c).arrAt 3 cfg0.N = Gine.lin (V c main_arg0) (V c main_arg3) (V c main_v4) := by
  exact (dat0 (F := Ideal) V c).arrAt_eq_of_cover 3 _ (fun t _ => flushed_eq V c t) cover

end Cert.KernelIdeal.Region0

end
-- ==== Proof.Region1.lean ====
/-
  The second pallas_call's value. The edge features are cut into two hundred blocks of 8000 rows; at each block the
  body computes `block · W_e + b_e` and writes it back as the same block of rows of the result. The affine layer is
  row-local, so the result array is the affine layer of the whole operand arrays the region found.
-/
import proofs.«136925_j70463233458547_1_alg».proof.Proof.Gen.KernelIdeal.Frame
import proofs.«136925_j70463233458547_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! ## The product into a zero accumulator, entry by entry -/

/-- Row axis of the left operand: the result's row. -/
theorem lhs_dot_0 (i : S8000x128.Idx) (q : dot_S8000x2_S2x128_S8000x128_1_0_0_1_n_n.contr.Idx) :
    (dot_S8000x2_S2x128_S8000x128_1_0_0_1_n_n.lhsIdx i q 0).val = (i 0).val := by
  unfold DotDims.lhsIdx
  rw [dif_neg (show ¬(0 : Fin S8000x2.rank) ∈ dot_S8000x2_S2x128_S8000x128_1_0_0_1_n_n.lhsBatch by decide),
    dif_pos (show (0 : Fin S8000x2.rank) ∈ dot_S8000x2_S2x128_S8000x128_1_0_0_1_n_n.lhsNonContracting by decide)]
  rfl

/-- Column axis of the left operand: the summation index. -/
theorem lhs_dot_1 (i : S8000x128.Idx) (q : dot_S8000x2_S2x128_S8000x128_1_0_0_1_n_n.contr.Idx) :
    (dot_S8000x2_S2x128_S8000x128_1_0_0_1_n_n.lhsIdx i q 1).val = (q ⟨0, by decide⟩).val :=
  dot_S8000x2_S2x128_S8000x128_1_0_0_1_n_n.lhsIdx_val_of_single rfl i q

/-- Row axis of the right operand: the summation index. -/
theorem rhs_dot_0 (i : S8000x128.Idx) (q : dot_S8000x2_S2x128_S8000x128_1_0_0_1_n_n.contr.Idx) :
    (dot_S8000x2_S2x128_S8000x128_1_0_0_1_n_n.rhsIdx i q 0).val = (q ⟨0, by decide⟩).val :=
  dot_S8000x2_S2x128_S8000x128_1_0_0_1_n_n.rhsIdx_val_of_single rfl i q

/-- Column axis of the right operand: the result's column. -/
theorem rhs_dot_1 (i : S8000x128.Idx) (q : dot_S8000x2_S2x128_S8000x128_1_0_0_1_n_n.contr.Idx) :
    (dot_S8000x2_S2x128_S8000x128_1_0_0_1_n_n.rhsIdx i q 1).val = (i 1).val := by
  unfold DotDims.rhsIdx
  rw [dif_neg (show ¬(1 : Fin S2x128.rank) ∈ dot_S8000x2_S2x128_S8000x128_1_0_0_1_n_n.rhsBatch by decide),
    dif_pos (show (1 : Fin S2x128.rank) ∈ dot_S8000x2_S2x128_S8000x128_1_0_0_1_n_n.rhsNonContracting by decide)]
  rfl

/-- Entry `(p, q)` of the block product started from zero is `∑ₖ lhs(p, k) · rhs(k, q)`. -/
theorem matmul_at {φ₁ φ₂ : FTy} (lhs : FVec Ideal S8000x2 φ₁) (rhs : FVec Ideal S2x128 φ₂) (p : Fin 8000) (q : Fin 128) :
    matmul (F := Ideal) dot_S8000x2_S2x128_S8000x128_1_0_0_1_n_n none lhs rhs
        (constant (F := Ideal) S8000x128 .f32 0x00000000#32) (ix2 p q)
      = ∑ k : Fin 2, lhs (ix2 p k) * rhs (ix2 k q) := by
  show FloatOps.matmul (F := Ideal) dot_S8000x2_S2x128_S8000x128_1_0_0_1_n_n none lhs rhs
        (constant (F := Ideal) S8000x128 .f32 0x00000000#32) (ix2 p q) = _
  rw [Ideal.matmul_constant_zero_apply,
    ← Equiv.sum_comp (contrEquiv1 dot_S8000x2_S2x128_S8000x128_1_0_0_1_n_n 2 rfl rfl).symm]
  refine Finset.sum_congr rfl fun k _ => ?_
  have hk := contrEquiv1_symm_val dot_S8000x2_S2x128_S8000x128_1_0_0_1_n_n 2 rfl rfl k
  have el : dot_S8000x2_S2x128_S8000x128_1_0_0_1_n_n.lhsIdx (ix2 p q)
      ((contrEquiv1 dot_S8000x2_S2x128_S8000x128_1_0_0_1_n_n 2 rfl rfl).symm k) = ix2 p k :=
    funext fun a => Fin.ext (by
      match a with
      | ⟨0, _⟩ => exact lhs_dot_0 _ _
      | ⟨1, _⟩ => exact (lhs_dot_1 _ _).trans hk)
  have er : dot_S8000x2_S2x128_S8000x128_1_0_0_1_n_n.rhsIdx (ix2 p q)
      ((contrEquiv1 dot_S8000x2_S2x128_S8000x128_1_0_0_1_n_n 2 rfl rfl).symm k) = ix2 k q :=
    funext fun a => Fin.ext (by
      match a with
      | ⟨0, _⟩ => exact (rhs_dot_0 _ _).trans hk
      | ⟨1, _⟩ => exact rhs_dot_1 _ _)
  rw [el, er]

/-! ## The body's arithmetic is the affine layer of its three blocks -/

/-- The payload — product of the block with the weights from a zero accumulator, plus the bias row spread over the
    rows — is the affine layer of the loaded blocks. The format changes are the identity on extended reals. -/
theorem pay_eq (x0 : Vec Ideal S8000x2 .f32) (x1 : Vec Ideal S2x128 .f32) (x2 : Vec Ideal S1x128 .f32) :
    k1_pay1 (F := Ideal) x0 x1 x2 = Gine.lin x0 x1 x2 := by
  funext j
  obtain ⟨p, q, rfl⟩ : ∃ (p : Fin 8000) (q : Fin 128), j = ix2 p q := ⟨j 0, j 1, eq_ix2 j⟩
  unfold k1_pay1
  rw [Gine.lin_apply, addf_apply, matmul_at, shapeCast_self, broadcastTo_1b_ab_apply]
  simp only [truncf_apply]

/-! ## Each window's block, read off the array it is cut from -/

theorem zero_offsets : (![0, 0] : Fin 2 → Nat) = fun _ => 0 := funext fun a => by fin_cases a <;> rfl

/-- The grid has two hundred points. -/
theorem grid_points : grid1.N = 200 := by decide

/-- The block indices at point `t`: the row-tiled operand and the result sit at block row `t`, block column `0`; the
    weights and the bias row are their whole arrays, at block `(0, 0)`. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of the operand's block at point `t` is row `t · 8000 + p` of the operand. -/
theorem rows_read (c : Dev nD) (t : Fin cfg1.N) (p : Fin 8000) (k : Fin 2)
    (hr : t.val * 8000 + p.val < 1600000) :
    (iblk1 (F := Ideal) V c 0 t : Vec Ideal S8000x2 .f32) (ix2 p k)
      = V c main_arg2 (ix2 (⟨t.val * 8000 + p.val, hr⟩ : Fin 1600000) k) := by
  unfold iblk1
  show V c main_arg2 (((cfg1.win 0).blk t).view.emb (ix2 p k)) = _
  refine congrArg (V c main_arg2) (funext fun a => Fin.ext ?_)
  obtain ⟨e0, e1, -⟩ := block_indices t
  match a with
  | ⟨0, _⟩ =>
    show win1_0.index t (0 : Fin 2) * 8000 + 1 * p.val = t.val * 8000 + p.val
    rw [e0]; omega
  | ⟨1, _⟩ =>
    show win1_0.index t (1 : Fin 2) * 2 + 1 * k.val = k.val
    rw [e1]; omega

/-- The weights' block is the whole weight matrix, at every point. -/
theorem weights_read (c : Dev nD) (t : Fin cfg1.N) :
    (iblk1 (F := Ideal) V c 1 t : Vec Ideal S2x128 .f32) = V c main_arg5 := by
  unfold iblk1
  funext y
  show V c main_arg5 (((cfg1.win 1).blk t).view.emb y) = V c main_arg5 y
  refine congrArg (V c main_arg5) (funext fun a => Fin.ext ?_)
  obtain ⟨-, -, e0, e1, -⟩ := block_indices t
  match a with
  | ⟨0, _⟩ =>
    show win1_1.index t (0 : Fin 2) * 2 + 1 * (y 0).val = (y 0).val
    rw [e0]; omega
  | ⟨1, _⟩ =>
    show win1_1.index t (1 : Fin 2) * 128 + 1 * (y 1).val = (y 1).val
    rw [e1]; omega

/-- The bias window's block is the whole bias row, at every point. -/
theorem bias_read (c : Dev nD) (t : Fin cfg1.N) :
    (iblk1 (F := Ideal) V c 2 t : Vec Ideal S1x128 .f32) = V c main_v6 := by
  unfold iblk1
  funext y
  show V c main_v6 (((cfg1.win 2).blk t).view.emb y) = V c main_v6 y
  refine congrArg (V c main_v6) (funext fun a => Fin.ext ?_)
  obtain ⟨-, -, -, -, e0, e1, -⟩ := block_indices t
  match a with
  | ⟨0, _⟩ =>
    show win1_2.index t (0 : Fin 2) * 1 + 1 * (y 0).val = (y 0).val
    rw [e0]; omega
  | ⟨1, _⟩ =>
    show win1_2.index t (1 : Fin 2) * 128 + 1 * (y 1).val = (y 1).val
    rw [e1]; omega

/-- Entry `(p, q)` of the result's block at point `t` sits at `(t · 8000 + p, q)` in the result array. -/
theorem result_at (t : Fin cfg1.N) (p : Fin 8000) (q : Fin 128) (hr : t.val * 8000 + p.val < 1600000) :
    ((cfg1.win 3).blk t).view.emb (ix2 p q) = ix2 (⟨t.val * 8000 + p.val, hr⟩ : Fin 1600000) q := by
  refine funext fun a => Fin.ext ?_
  obtain ⟨-, -, -, -, -, -, e0, e1⟩ := block_indices t
  match a with
  | ⟨0, _⟩ =>
    show win1_3.index t (0 : Fin 2) * 8000 + 1 * p.val = t.val * 8000 + p.val
    rw [e0]; omega
  | ⟨1, _⟩ =>
    show win1_3.index t (1 : Fin 2) * 128 + 1 * q.val = q.val
    rw [e1]; omega

/-! ## What a point writes back is its block of the affine layer of the whole arrays -/

theorem flushed_eq (c : Dev nD) (t : Fin cfg1.N) :
    (dat1 (F := Ideal) V c).flushed 3 t
      = ((cfg1.win 3).blk t).view.read (Elt Ideal) (Gine.lin (V c main_arg2) (V c main_arg5) (V c main_v6)) := by
  show (cfg1.win 3).cut (grid1.coords t) ((dat1 (F := Ideal) V c).after 3 t) = _
  rw [after1_3]
  unfold out1_3
  rw [View.canon_unit_zero zero_offsets]
  simp only [View.ld_unit_zero (S := S8000x2) zero_offsets, View.ld_unit_zero (S := S2x128) zero_offsets,
    View.ld_unit_zero (S := S1x128) zero_offsets]
  rw [pay_eq, weights_read, bias_read]
  funext j
  obtain ⟨p, q, rfl⟩ : ∃ (p : Fin 8000) (q : Fin 128), j = ix2 p q := ⟨j 0, j 1, eq_ix2 j⟩
  have ht : t.val < 200 := lt_of_lt_of_eq t.isLt grid_points
  have hr : t.val * 8000 + p.val < 1600000 := by have := p.isLt; omega
  show Gine.lin (iblk1 (F := Ideal) V c 0 t : Vec Ideal S8000x2 .f32) (V c main_arg5) (V c main_v6) (ix2 p q)
    = Gine.lin (V c main_arg2) (V c main_arg5) (V c main_v6) (((cfg1.win 3).blk t).view.emb (ix2 p q))
  rw [result_at t p q hr]
  exact Gine.lin_block _ _ _ _ (⟨t.val * 8000 + p.val, hr⟩ : Fin 1600000) p q fun k => rows_read V c t p k hr

/-! ## The two hundred blocks of rows tile the result array -/

/-- An index of the result array is in point `t`'s block iff each coordinate is in the block's range on its axis. -/
theorem mem_blk (t : Fin cfg1.N) (i : S1600000x128.Idx) :
    i ∈ ((cfg1.win 3).blk t).view.set ↔ ∀ a : Fin 2, win1_3.index t a * S8000x128.size a ≤ (i a).val
      ∧ (i a).val < win1_3.index t a * S8000x128.size a + S8000x128.size a := by
  show i ∈ ((View.whole main_v7).slice (win1_3.rect t)).set ↔ _
  rw [View.set_slice_whole, Rect.mem_set_unit]
  exact Iff.rfl

/-- Row `r` lies in the block of point `r / 8000`, and every point writes its block back. -/
theorem cover (i : S1600000x128.Idx) :
    ∃ t : Fin cfg1.N, (cfg1.win 3).flush t = true ∧ i ∈ ((cfg1.win 3).blk t).view.set := by
  have hi0 : (i 0).val < 1600000 := (i 0).isLt
  have hi1 : (i 1).val < 128 := (i 1).isLt
  have hN : (i 0).val / 8000 < cfg1.N := by
    show (i 0).val / 8000 < grid1.N
    rw [grid_points]; omega
  refine ⟨⟨(i 0).val / 8000, hN⟩, flush1_3 _, ?_⟩
  rw [mem_blk]
  obtain ⟨-, -, -, -, -, -, e0, e1⟩ := block_indices ⟨(i 0).val / 8000, hN⟩
  intro a
  match a with
  | ⟨0, _⟩ =>
    show win1_3.index ⟨(i 0).val / 8000, hN⟩ (0 : Fin 2) * 8000 ≤ (i 0).val
      ∧ (i 0).val < win1_3.index ⟨(i 0).val / 8000, hN⟩ (0 : Fin 2) * 8000 + 8000
    rw [e0]
    show (i 0).val / 8000 * 8000 ≤ (i 0).val ∧ (i 0).val < (i 0).val / 8000 * 8000 + 8000
    omega
  | ⟨1, _⟩ =>
    show win1_3.index ⟨(i 0).val / 8000, hN⟩ (1 : Fin 2) * 128 ≤ (i 1).val
      ∧ (i 1).val < win1_3.index ⟨(i 0).val / 8000, hN⟩ (1 : Fin 2) * 128 + 128
    rw [e1]
    omega

/-- After the region, its result array is the affine layer of the arrays the region found. -/
theorem value (c : Dev nD) :
    (dat1 (F := Ideal) V c).arrAt 3 cfg1.N = Gine.lin (V c main_arg2) (V c main_arg5) (V c main_v6) := by
  exact (dat1 (F := Ideal) V c).arrAt_eq_of_cover 3 _ (fun t _ => flushed_eq V c t) cover

end Cert.KernelIdeal.Region1

end
-- ==== Proof.Region2.lean ====
/-
  The third pallas_call's value: the node update of the first round. The node states and their aggregate are cut
  into twenty blocks of 5000 rows; at each block the body adds the two, applies the first affine layer, takes the
  positive part, applies the second affine layer, and writes the block of rows back. The update is row-local, so the
  result array is the update of the whole arrays the region found.
-/
import proofs.«136925_j70463233458547_1_alg».proof.Proof.Gen.KernelIdeal.Frame
import proofs.«136925_j70463233458547_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The matrix product of a block of rows with a square weight matrix

The contraction record sums over the left operand's second axis and the right operand's first; the four facts below
say which coordinate of each operand an output index and a contraction index select. -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product accumulated into zero, at entry `(p, q)`: the sum over `k` of the left operand's `(p, k)` times the
    right operand's `(k, q)`, whatever formats the operands carry (every element is an extended real). -/
theorem prod_apply {φ₁ φ₂ : FTy} (lhs : FVec Ideal S5000x128 φ₁) (rhs : FVec Ideal S128x128 φ₂) (p : Fin 5000) (q : Fin 128) :
    FloatOps.matmul dot_S5000x128_S128x128_S5000x128_1_0_0_1_n_n none lhs rhs (constant (F := Ideal) S5000x128 .f32 0x00000000#32) (ix2 p q)
      = ∑ k : Fin 128, lhs (ix2 p k) * rhs (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The body's arithmetic is the node update of its blocks -/

/-- The body's one stored value, as a function of the six blocks it loads, is the node update of those blocks. -/
theorem pay_eq (x0 x1 : Vec Ideal S5000x128 .f32) (W1 : Vec Ideal S128x128 .f32) (b1 : Vec Ideal S1x128 .f32)
    (W2 : Vec Ideal S128x128 .f32) (b2 : Vec Ideal S1x128 .f32) :
    k2_pay1 (F := Ideal) x0 x1 W1 b1 W2 b2 = Gine.upd x0 x1 W1 b1 W2 b2 := by
  funext j
  obtain ⟨p, q, rfl⟩ : ∃ (p : Fin 5000) (q : Fin 128), j = ix2 p q := ⟨j 0, j 1, eq_ix2 j⟩
  unfold k2_pay1
  simp only [matmul, shapeCast_self]
  rw [Gine.upd_apply, addf_apply, prod_apply, broadcastTo_1b_ab_apply]
  refine congrArg (· + b2 (ix2 (0 : Fin 1) q)) (Finset.sum_congr rfl fun k _ => ?_)
  rw [Gine.hidden_apply, truncf_apply, truncf_apply, maximumf_apply, addf_apply, prod_apply, broadcastTo_1b_ab_apply, broadcast_apply]
  rfl

variable (V : (c : Dev nD) → (b : Ref sig .tc) → Buf (Elt Ideal) ((c : Thread nD τ).loc b))

/-! ## The blocks the body loads, read off the whole arrays -/

theorem zero_offsets : (![0, 0] : Fin 2 → Nat) = fun _ => 0 := funext fun a => by fin_cases a <;> rfl

/-- The printed index maps over the grid: the two row-tiled inputs and the result move down one block of rows per
    point and stay at column block zero; the weights and bias rows stay at block zero on both axes. -/
theorem index_maps : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0) :=
  (by decide +kernel : ∀ t : Fin grid2.N, _)

/-- Row `t · 5000 + p` of the whole arrays is a row: the twenty blocks of 5000 rows make up the 100000. -/
theorem row_lt (t : Fin cfg2.N) (p : Fin 5000) : t.val * 5000 + p.val < 100000 := by
  have ht : t.val < 20 := t.isLt
  have hp := p.isLt
  omega

/-- Row `p` of the node states' block at point `t` is row `t · 5000 + p` of the node states. -/
theorem states_block (c : Dev nD) (t : Fin cfg2.N) (p : Fin 5000) (k : Fin 128) :
    iblk2 V c 0 t (ix2 p k) = V c main_v5 (ix2 ⟨t.val * 5000 + p.val, row_lt t p⟩ k) := by
  show V c main_v5 (((cfg2.win 0).blk t).view.emb (ix2 p k)) = _
  refine congrArg _ (funext fun a => Fin.ext ?_)
  obtain ⟨⟨e0, e1⟩, -⟩ := index_maps t
  match a with
  | ⟨0, _⟩ => show win2_0.index t (0 : Fin 2) * 5000 + 1 * p.val = t.val * 5000 + p.val; omega
  | ⟨1, _⟩ => show win2_0.index t (1 : Fin 2) * 128 + 1 * k.val = k.val; omega

/-- The same for the aggregate. -/
theorem aggregate_block (c : Dev nD) (t : Fin cfg2.N) (p : Fin 5000) (k : Fin 128) :
    iblk2 V c 1 t (ix2 p k) = V c main_v19 (ix2 ⟨t.val * 5000 + p.val, row_lt t p⟩ k) := by
  show V c main_v19 (((cfg2.win 1).blk t).view.emb (ix2 p k)) = _
  refine congrArg _ (funext fun a => Fin.ext ?_)
  obtain ⟨-, ⟨e0, e1⟩, -⟩ := index_maps t
  match a with
  | ⟨0, _⟩ => show win2_1.index t (0 : Fin 2) * 5000 + 1 * p.val = t.val * 5000 + p.val; omega
  | ⟨1, _⟩ => show win2_1.index t (1 : Fin 2) * 128 + 1 * k.val = k.val; omega

/-- The first weight matrix's block is the whole matrix at every point. -/
theorem weight1_block (c : Dev nD) (t : Fin cfg2.N) :
    (iblk2 V c 2 t : S128x128.Idx → EReal) = V c main_arg7 := by
  funext j
  show V c main_arg7 (((cfg2.win 2).blk t).view.emb j) = V c main_arg7 j
  refine congrArg _ (funext fun a => Fin.ext ?_)
  obtain ⟨-, -, ⟨e0, e1⟩, -⟩ := index_maps t
  match a with
  | ⟨0, _⟩ => show win2_2.index t (0 : Fin 2) * 128 + 1 * (j 0).val = (j 0).val; omega
  | ⟨1, _⟩ => show win2_2.index t (1 : Fin 2) * 128 + 1 * (j 1).val = (j 1).val; omega

/-- The first bias row's block is the whole row. -/
theorem bias1_block (c : Dev nD) (t : Fin cfg2.N) :
    (iblk2 V c 3 t : S1x128.Idx → EReal) = V c main_v20 := by
  funext j
  show V c main_v20 (((cfg2.win 3).blk t).view.emb j) = V c main_v20 j
  refine congrArg _ (funext fun a => Fin.ext ?_)
  obtain ⟨-, -, -, ⟨e0, e1⟩, -⟩ := index_maps t
  match a with
  | ⟨0, _⟩ => show win2_3.index t (0 : Fin 2) * 1 + 1 * (j 0).val = (j 0).val; omega
  | ⟨1, _⟩ => show win2_3.index t (1 : Fin 2) * 128 + 1 * (j 1).val = (j 1).val; omega

/-- The second weight matrix's block is the whole matrix. -/
theorem weight2_block (c : Dev nD) (t : Fin cfg2.N) :
    (iblk2 V c 4 t : S128x128.Idx → EReal) = V c main_arg9 := by
  funext j
  show V c main_arg9 (((cfg2.win 4).blk t).view.emb j) = V c main_arg9 j
  refine congrArg _ (funext fun a => Fin.ext ?_)
  obtain ⟨-, -, -, -, ⟨e0, e1⟩, -⟩ := index_maps t
  match a with
  | ⟨0, _⟩ => show win2_4.index t (0 : Fin 2) * 128 + 1 * (j 0).val = (j 0).val; omega
  | ⟨1, _⟩ => show win2_4.index t (1 : Fin 2) * 128 + 1 * (j 1).val = (j 1).val; omega

/-- The second bias row's block is the whole row. -/
theorem bias2_block (c : Dev nD) (t : Fin cfg2.N) :
    (iblk2 V c 5 t : S1x128.Idx → EReal) = V c main_v21 := by
  funext j
  show V c main_v21 (((cfg2.win 5).blk t).view.emb j) = V c main_v21 j
  refine congrArg _ (funext fun a => Fin.ext ?_)
  obtain ⟨-, -, -, -, -, ⟨e0, e1⟩, -⟩ := index_maps t
  match a with
  | ⟨0, _⟩ => show win2_5.index t (0 : Fin 2) * 1 + 1 * (j 0).val = (j 0).val; omega
  | ⟨1, _⟩ => show win2_5.index t (1 : Fin 2) * 128 + 1 * (j 1).val = (j 1).val; omega

/-! ## From the blocks to the array -/

/-- What point `t` writes back is block `t` of the node update of the whole arrays: the update is row-local, the
    block's row `p` is row `t · 5000 + p` of the row-tiled arrays, and the weights and bias rows are whole. -/
theorem flushed_eq (c : Dev nD) (t : Fin cfg2.N) :
    (dat2 V c).flushed 6 t = ((cfg2.win 6).blk t).view.read (Elt Ideal)
      (Gine.upd (V c main_v5) (V c main_v19) (V c main_arg7) (V c main_v20) (V c main_arg9) (V c main_v21)) := by
  show (cfg2.win 6).cut (grid2.coords t) ((dat2 V c).after 6 t) = _
  rw [after2_6]
  unfold out2_6
  rw [View.canon_unit_zero zero_offsets]
  simp only [View.ld_unit_zero (S := S5000x128) zero_offsets, View.ld_unit_zero (S := S128x128) zero_offsets, View.ld_unit_zero (S := S1x128) zero_offsets]
  rw [pay_eq, weight1_block, bias1_block, weight2_block, bias2_block]
  show (Gine.upd (iblk2 V c 0 t) (iblk2 V c 1 t) (V c main_arg7) (V c main_v20) (V c main_arg9) (V c main_v21) : S5000x128.Idx → EReal)
      = fun j : S5000x128.Idx => Gine.upd (V c main_v5) (V c main_v19) (V c main_arg7) (V c main_v20) (V c main_arg9) (V c main_v21) (((cfg2.win 6).blk t).view.emb j)
  funext j
  obtain ⟨p, q, rfl⟩ : ∃ (p : Fin 5000) (q : Fin 128), j = ix2 p q := ⟨j 0, j 1, eq_ix2 j⟩
  have e : ((cfg2.win 6).blk t).view.emb (ix2 p q) = (ix2 ⟨t.val * 5000 + p.val, row_lt t p⟩ q : S100000x128.Idx) := by
    funext a; apply Fin.ext
    obtain ⟨-, -, -, -, -, -, ⟨e0, e1⟩⟩ := index_maps t
    match a with
    | ⟨0, _⟩ => show win2_6.index t (0 : Fin 2) * 5000 + 1 * p.val = t.val * 5000 + p.val; omega
    | ⟨1, _⟩ => show win2_6.index t (1 : Fin 2) * 128 + 1 * q.val = q.val; omega
  show _ = Gine.upd (V c main_v5) (V c main_v19) (V c main_arg7) (V c main_v20) (V c main_arg9) (V c main_v21) (((cfg2.win 6).blk t).view.emb (ix2 p q))
  rw [e]
  exact Gine.upd_block _ _ _ _ _ _ _ _ ⟨t.val * 5000 + p.val, row_lt t p⟩ p q (states_block V c t p) (aggregate_block V c t p)

/-- An index of the result array is in point `t`'s block iff each coordinate is in the block's range on its axis. -/
theorem mem_block (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v22).slice (win2_6.rect t)).set ↔ _
  rw [View.set_slice_whole, Rect.mem_set_unit]
  exact Iff.rfl

/-- Every row of the result is in the block of the point its row number divided by 5000 names, and every point
    writes its block back. -/
theorem cover (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have ht : (i 0).val / 5000 < 20 := by omega
  refine ⟨⟨(i 0).val / 5000, ht⟩, flush2_6 _, ?_⟩
  rw [mem_block]
  obtain ⟨-, -, -, -, -, -, ⟨e0, e1⟩⟩ := index_maps ⟨(i 0).val / 5000, ht⟩
  have et : (⟨(i 0).val / 5000, ht⟩ : Fin cfg2.N).val = (i 0).val / 5000 := rfl
  intro a
  match a with
  | ⟨0, _⟩ =>
    show win2_6.index ⟨(i 0).val / 5000, ht⟩ (0 : Fin 2) * 5000 ≤ (i 0).val ∧ (i 0).val < win2_6.index ⟨(i 0).val / 5000, ht⟩ (0 : Fin 2) * 5000 + 5000
    omega
  | ⟨1, _⟩ =>
    show win2_6.index ⟨(i 0).val / 5000, ht⟩ (1 : Fin 2) * 128 ≤ (i 1).val ∧ (i 1).val < win2_6.index ⟨(i 0).val / 5000, ht⟩ (1 : Fin 2) * 128 + 128
    omega

/-- After the region, its result array is the node update of the arrays the region found. -/
theorem value (c : Dev nD) :
    (dat2 (F := Ideal) V c).arrAt 6 cfg2.N
      = Gine.upd (V c main_v5) (V c main_v19) (V c main_arg7) (V c main_v20) (V c main_arg9) (V c main_v21) :=
  (dat2 V c).arrAt_eq_of_cover 6 _ (fun t _ => flushed_eq V c t) cover

end Cert.KernelIdeal.Region2

end
-- ==== Proof.Region3.lean ====
/-
  The fourth pallas_call's value: the node update of the second round, the same body as the first round's on the
  second round's node states and aggregate, with the same weights.
-/
import proofs.«136925_j70463233458547_1_alg».proof.Proof.Gen.KernelIdeal.Frame
import proofs.«136925_j70463233458547_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The matrix product of a block of rows with a square weight matrix

The contraction record sums over the left operand's second axis and the right operand's first; the four facts below
say which coordinate of each operand an output index and a contraction index select. -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product accumulated into zero, at entry `(p, q)`: the sum over `k` of the left operand's `(p, k)` times the
    right operand's `(k, q)`, whatever formats the operands carry (every element is an extended real). -/
theorem prod_apply {φ₁ φ₂ : FTy} (lhs : FVec Ideal S5000x128 φ₁) (rhs : FVec Ideal S128x128 φ₂) (p : Fin 5000) (q : Fin 128) :
    FloatOps.matmul dot_S5000x128_S128x128_S5000x128_1_0_0_1_n_n none lhs rhs (constant (F := Ideal) S5000x128 .f32 0x00000000#32) (ix2 p q)
      = ∑ k : Fin 128, lhs (ix2 p k) * rhs (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The body's arithmetic is the node update of its blocks -/

/-- The body's one stored value, as a function of the six blocks it loads, is the node update of those blocks. -/
theorem pay_eq (x0 x1 : Vec Ideal S5000x128 .f32) (W1 : Vec Ideal S128x128 .f32) (b1 : Vec Ideal S1x128 .f32)
    (W2 : Vec Ideal S128x128 .f32) (b2 : Vec Ideal S1x128 .f32) :
    k3_pay1 (F := Ideal) x0 x1 W1 b1 W2 b2 = Gine.upd x0 x1 W1 b1 W2 b2 := by
  funext j
  obtain ⟨p, q, rfl⟩ : ∃ (p : Fin 5000) (q : Fin 128), j = ix2 p q := ⟨j 0, j 1, eq_ix2 j⟩
  unfold k3_pay1
  simp only [matmul, shapeCast_self]
  rw [Gine.upd_apply, addf_apply, prod_apply, broadcastTo_1b_ab_apply]
  refine congrArg (· + b2 (ix2 (0 : Fin 1) q)) (Finset.sum_congr rfl fun k _ => ?_)
  rw [Gine.hidden_apply, truncf_apply, truncf_apply, maximumf_apply, addf_apply, prod_apply, broadcastTo_1b_ab_apply, broadcast_apply]
  rfl

variable (V : (c : Dev nD) → (b : Ref sig .tc) → Buf (Elt Ideal) ((c : Thread nD τ).loc b))

/-! ## The blocks the body loads, read off the whole arrays -/

theorem zero_offsets : (![0, 0] : Fin 2 → Nat) = fun _ => 0 := funext fun a => by fin_cases a <;> rfl

/-- The printed index maps over the grid: the two row-tiled inputs and the result move down one block of rows per
    point and stay at column block zero; the weights and bias rows stay at block zero on both axes. -/
theorem index_maps : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = t.val ∧ win3_6.index t (1 : Fin 2) = 0) :=
  (by decide +kernel : ∀ t : Fin grid3.N, _)

/-- Row `t · 5000 + p` of the whole arrays is a row: the twenty blocks of 5000 rows make up the 100000. -/
theorem row_lt (t : Fin cfg3.N) (p : Fin 5000) : t.val * 5000 + p.val < 100000 := by
  have ht : t.val < 20 := t.isLt
  have hp := p.isLt
  omega

/-- Row `p` of the node states' block at point `t` is row `t · 5000 + p` of the node states. -/
theorem states_block (c : Dev nD) (t : Fin cfg3.N) (p : Fin 5000) (k : Fin 128) :
    iblk3 V c 0 t (ix2 p k) = V c main_v23 (ix2 ⟨t.val * 5000 + p.val, row_lt t p⟩ k) := by
  show V c main_v23 (((cfg3.win 0).blk t).view.emb (ix2 p k)) = _
  refine congrArg _ (funext fun a => Fin.ext ?_)
  obtain ⟨⟨e0, e1⟩, -⟩ := index_maps t
  match a with
  | ⟨0, _⟩ => show win3_0.index t (0 : Fin 2) * 5000 + 1 * p.val = t.val * 5000 + p.val; omega
  | ⟨1, _⟩ => show win3_0.index t (1 : Fin 2) * 128 + 1 * k.val = k.val; omega

/-- The same for the aggregate. -/
theorem aggregate_block (c : Dev nD) (t : Fin cfg3.N) (p : Fin 5000) (k : Fin 128) :
    iblk3 V c 1 t (ix2 p k) = V c main_v35 (ix2 ⟨t.val * 5000 + p.val, row_lt t p⟩ k) := by
  show V c main_v35 (((cfg3.win 1).blk t).view.emb (ix2 p k)) = _
  refine congrArg _ (funext fun a => Fin.ext ?_)
  obtain ⟨-, ⟨e0, e1⟩, -⟩ := index_maps t
  match a with
  | ⟨0, _⟩ => show win3_1.index t (0 : Fin 2) * 5000 + 1 * p.val = t.val * 5000 + p.val; omega
  | ⟨1, _⟩ => show win3_1.index t (1 : Fin 2) * 128 + 1 * k.val = k.val; omega

/-- The first weight matrix's block is the whole matrix at every point. -/
theorem weight1_block (c : Dev nD) (t : Fin cfg3.N) :
    (iblk3 V c 2 t : S128x128.Idx → EReal) = V c main_arg7 := by
  funext j
  show V c main_arg7 (((cfg3.win 2).blk t).view.emb j) = V c main_arg7 j
  refine congrArg _ (funext fun a => Fin.ext ?_)
  obtain ⟨-, -, ⟨e0, e1⟩, -⟩ := index_maps t
  match a with
  | ⟨0, _⟩ => show win3_2.index t (0 : Fin 2) * 128 + 1 * (j 0).val = (j 0).val; omega
  | ⟨1, _⟩ => show win3_2.index t (1 : Fin 2) * 128 + 1 * (j 1).val = (j 1).val; omega

/-- The first bias row's block is the whole row. -/
theorem bias1_block (c : Dev nD) (t : Fin cfg3.N) :
    (iblk3 V c 3 t : S1x128.Idx → EReal) = V c main_v36 := by
  funext j
  show V c main_v36 (((cfg3.win 3).blk t).view.emb j) = V c main_v36 j
  refine congrArg _ (funext fun a => Fin.ext ?_)
  obtain ⟨-, -, -, ⟨e0, e1⟩, -⟩ := index_maps t
  match a with
  | ⟨0, _⟩ => show win3_3.index t (0 : Fin 2) * 1 + 1 * (j 0).val = (j 0).val; omega
  | ⟨1, _⟩ => show win3_3.index t (1 : Fin 2) * 128 + 1 * (j 1).val = (j 1).val; omega

/-- The second weight matrix's block is the whole matrix. -/
theorem weight2_block (c : Dev nD) (t : Fin cfg3.N) :
    (iblk3 V c 4 t : S128x128.Idx → EReal) = V c main_arg9 := by
  funext j
  show V c main_arg9 (((cfg3.win 4).blk t).view.emb j) = V c main_arg9 j
  refine congrArg _ (funext fun a => Fin.ext ?_)
  obtain ⟨-, -, -, -, ⟨e0, e1⟩, -⟩ := index_maps t
  match a with
  | ⟨0, _⟩ => show win3_4.index t (0 : Fin 2) * 128 + 1 * (j 0).val = (j 0).val; omega
  | ⟨1, _⟩ => show win3_4.index t (1 : Fin 2) * 128 + 1 * (j 1).val = (j 1).val; omega

/-- The second bias row's block is the whole row. -/
theorem bias2_block (c : Dev nD) (t : Fin cfg3.N) :
    (iblk3 V c 5 t : S1x128.Idx → EReal) = V c main_v37 := by
  funext j
  show V c main_v37 (((cfg3.win 5).blk t).view.emb j) = V c main_v37 j
  refine congrArg _ (funext fun a => Fin.ext ?_)
  obtain ⟨-, -, -, -, -, ⟨e0, e1⟩, -⟩ := index_maps t
  match a with
  | ⟨0, _⟩ => show win3_5.index t (0 : Fin 2) * 1 + 1 * (j 0).val = (j 0).val; omega
  | ⟨1, _⟩ => show win3_5.index t (1 : Fin 2) * 128 + 1 * (j 1).val = (j 1).val; omega

/-! ## From the blocks to the array -/

/-- What point `t` writes back is block `t` of the node update of the whole arrays: the update is row-local, the
    block's row `p` is row `t · 5000 + p` of the row-tiled arrays, and the weights and bias rows are whole. -/
theorem flushed_eq (c : Dev nD) (t : Fin cfg3.N) :
    (dat3 V c).flushed 6 t = ((cfg3.win 6).blk t).view.read (Elt Ideal)
      (Gine.upd (V c main_v23) (V c main_v35) (V c main_arg7) (V c main_v36) (V c main_arg9) (V c main_v37)) := by
  show (cfg3.win 6).cut (grid3.coords t) ((dat3 V c).after 6 t) = _
  rw [after3_6]
  unfold out3_6
  rw [View.canon_unit_zero zero_offsets]
  simp only [View.ld_unit_zero (S := S5000x128) zero_offsets, View.ld_unit_zero (S := S128x128) zero_offsets, View.ld_unit_zero (S := S1x128) zero_offsets]
  rw [pay_eq, weight1_block, bias1_block, weight2_block, bias2_block]
  show (Gine.upd (iblk3 V c 0 t) (iblk3 V c 1 t) (V c main_arg7) (V c main_v36) (V c main_arg9) (V c main_v37) : S5000x128.Idx → EReal)
      = fun j : S5000x128.Idx => Gine.upd (V c main_v23) (V c main_v35) (V c main_arg7) (V c main_v36) (V c main_arg9) (V c main_v37) (((cfg3.win 6).blk t).view.emb j)
  funext j
  obtain ⟨p, q, rfl⟩ : ∃ (p : Fin 5000) (q : Fin 128), j = ix2 p q := ⟨j 0, j 1, eq_ix2 j⟩
  have e : ((cfg3.win 6).blk t).view.emb (ix2 p q) = (ix2 ⟨t.val * 5000 + p.val, row_lt t p⟩ q : S100000x128.Idx) := by
    funext a; apply Fin.ext
    obtain ⟨-, -, -, -, -, -, ⟨e0, e1⟩⟩ := index_maps t
    match a with
    | ⟨0, _⟩ => show win3_6.index t (0 : Fin 2) * 5000 + 1 * p.val = t.val * 5000 + p.val; omega
    | ⟨1, _⟩ => show win3_6.index t (1 : Fin 2) * 128 + 1 * q.val = q.val; omega
  show _ = Gine.upd (V c main_v23) (V c main_v35) (V c main_arg7) (V c main_v36) (V c main_arg9) (V c main_v37) (((cfg3.win 6).blk t).view.emb (ix2 p q))
  rw [e]
  exact Gine.upd_block _ _ _ _ _ _ _ _ ⟨t.val * 5000 + p.val, row_lt t p⟩ p q (states_block V c t p) (aggregate_block V c t p)

/-- An index of the result array is in point `t`'s block iff each coordinate is in the block's range on its axis. -/
theorem mem_block (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v38).slice (win3_6.rect t)).set ↔ _
  rw [View.set_slice_whole, Rect.mem_set_unit]
  exact Iff.rfl

/-- Every row of the result is in the block of the point its row number divided by 5000 names, and every point
    writes its block back. -/
theorem cover (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  have ht : (i 0).val / 5000 < 20 := by omega
  refine ⟨⟨(i 0).val / 5000, ht⟩, flush3_6 _, ?_⟩
  rw [mem_block]
  obtain ⟨-, -, -, -, -, -, ⟨e0, e1⟩⟩ := index_maps ⟨(i 0).val / 5000, ht⟩
  have et : (⟨(i 0).val / 5000, ht⟩ : Fin cfg3.N).val = (i 0).val / 5000 := rfl
  intro a
  match a with
  | ⟨0, _⟩ =>
    show win3_6.index ⟨(i 0).val / 5000, ht⟩ (0 : Fin 2) * 5000 ≤ (i 0).val ∧ (i 0).val < win3_6.index ⟨(i 0).val / 5000, ht⟩ (0 : Fin 2) * 5000 + 5000
    omega
  | ⟨1, _⟩ =>
    show win3_6.index ⟨(i 0).val / 5000, ht⟩ (1 : Fin 2) * 128 ≤ (i 1).val ∧ (i 1).val < win3_6.index ⟨(i 0).val / 5000, ht⟩ (1 : Fin 2) * 128 + 128
    omega

/-- After the region, its result array is the node update of the arrays the region found. -/
theorem value (c : Dev nD) :
    (dat3 (F := Ideal) V c).arrAt 6 cfg3.N
      = Gine.upd (V c main_v23) (V c main_v35) (V c main_arg7) (V c main_v36) (V c main_arg9) (V c main_v37) :=
  (dat3 V c).arrAt_eq_of_cover 6 _ (fun t _ => flushed_eq V c t) cover

end Cert.KernelIdeal.Region3

end
-- ==== Proof.BoundaryA.lean ====
/-
  What each of the first three regions finds in its operand arrays, read back through the host operations that run
  before it. The contents at a boundary are a fold of the host operations over the launch memory, a region replacing
  its own arrays by what it leaves; a buffer no operation of a stretch writes passes through the stretch unchanged,
  and a buffer a stretch writes holds that operation's function of the buffers it reads.
-/
import proofs.«136925_j70463233458547_1_alg».proof.Proof.Gen.KernelIdeal.Frame
import proofs.«136925_j70463233458547_1_alg».proof.Proof.Glue
import Idealize.ShloMosaic.Lib.StableHlo.Run

set_option maxRecDepth 16384

noncomputable section

namespace Cert.KernelIdeal.BoundaryA

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- A buffer that no operation of a stretch writes holds after the stretch what it held before: closes
    `after ops V b = V b` by checking the buffer against each operation's result buffer. -/
macro "kept_through " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-- The same fact used as one step of a walk back: the goal `after ops V b = r` becomes `V b = r`. -/
macro "back_over " ops:ident : tactic => `(tactic|
  refine Eq.trans (StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))) ?_)

/-! ## Buffers nothing writes before the third region: the launch contents all the way

A buffer that is the result of no host operation and an array of neither of the first two regions holds the launch
contents at every boundary up to the third region's entry. -/

/-- Seven steps back from the third region's entry to the launch, for a buffer nothing on the way writes. -/
macro "launched_at7" : tactic => `(tactic|
  (back_over hostOps2_2; back_over hostOps2_1; back_over hostOps2
   refine Eq.trans (W4_of_ne _ _ _ _ (by decide)) ?_
   back_over hostOps1
   refine Eq.trans (W2_of_ne _ _ _ _ (by decide)) ?_
   back_over hostOps0
   rfl))

/-- Three steps back from the second region's entry to the launch, for a buffer nothing on the way writes. -/
macro "launched_at3" : tactic => `(tactic|
  (back_over hostOps1
   refine Eq.trans (W2_of_ne _ _ _ _ (by decide)) ?_
   back_over hostOps0
   rfl))

/-- The node features reach the first region as launched. -/
theorem at1_x (c : Dev nD) :
    V1 m ρ c main_arg0 = m ((c : Thread nD τ).loc main_arg0) := by
  show StableHlo.after hostOps0 (W0 m ρ c) (Proc.devRef .tc main_arg0) = _
  kept_through hostOps0

/-- The first layer's weights reach the first region as launched. -/
theorem at1_Win (c : Dev nD) :
    V1 m ρ c main_arg3 = m ((c : Thread nD τ).loc main_arg3) := by
  show StableHlo.after hostOps0 (W0 m ρ c) (Proc.devRef .tc main_arg3) = _
  kept_through hostOps0

/-- The first layer's bias reaches the first region as one row. -/
theorem at1_bin (c : Dev nD) :
    V1 m ρ c main_v4 = Glue.rowOf (m ((c : Thread nD τ).loc main_arg4)) := by
  show StableHlo.after hostOps0 (W0 m ρ c) (Proc.devRef .tc main_v4) = _
  after_results
  rfl

/-- The edge features reach the second region as launched. -/
theorem at3_ea (c : Dev nD) :
    V3 m ρ c main_arg2 = m ((c : Thread nD τ).loc main_arg2) := by
  show W3 m ρ c (Proc.devRef .tc main_arg2) = _
  launched_at3

/-- The edge layer's weights reach the second region as launched. -/
theorem at3_We (c : Dev nD) :
    V3 m ρ c main_arg5 = m ((c : Thread nD τ).loc main_arg5) := by
  show W3 m ρ c (Proc.devRef .tc main_arg5) = _
  launched_at3

/-- The edge layer's bias vector is still as launched when the first region has run. -/
theorem edgeBias_at2 (c : Dev nD) :
    W2 m ρ c (Proc.devRef .tc main_arg6) = m ((c : Thread nD τ).loc main_arg6) := by
  refine Eq.trans (W2_of_ne _ _ _ _ (by decide)) ?_
  back_over hostOps0
  rfl

/-- The edge layer's bias reaches the second region as one row. -/
theorem at3_be (c : Dev nD) :
    V3 m ρ c main_v6 = Glue.rowOf (m ((c : Thread nD τ).loc main_arg6)) := by
  show StableHlo.after hostOps1 (W2 m ρ c) (Proc.devRef .tc main_v6) = _
  after_results
  rw [edgeBias_at2]
  rfl

/-! ## The two regions' results and the edge list's rows, up to the second region's exit -/

/-- The first region's result array at the second region's exit: what the first region left. -/
theorem hidden_at4 (c : Dev nD) :
    W4 m ρ c (Proc.devRef .tc main_v5) = (dat0 (V1 m ρ) c).arrAt 3 cfg0.N := by
  refine Eq.trans (W4_of_ne _ _ _ _ (by decide)) ?_
  back_over hostOps1
  exact W2_arr m ρ c 3

/-- The second region's result array at its exit. -/
theorem edge_at4 (c : Dev nD) :
    W4 m ρ c (Proc.devRef .tc main_v7) = (dat1 (V3 m ρ) c).arrAt 3 cfg1.N :=
  W4_arr m ρ c 3

/-- The source vector after the first stretch: row 0 of the launched edge list. -/
theorem src_at1 (c : Dev nD) :
    W1 m ρ c (Proc.devRef .tc main_v1) = Glue.src (m ((c : Thread nD τ).loc main_arg1)) := by
  show StableHlo.after hostOps0 (W0 m ρ c) (Proc.devRef .tc main_v1) = _
  after_results
  rfl

/-- The destination vector after the first stretch: row 1 of the launched edge list. -/
theorem dst_at1 (c : Dev nD) :
    W1 m ρ c (Proc.devRef .tc main_v3) = Glue.dst (m ((c : Thread nD τ).loc main_arg1)) := by
  show StableHlo.after hostOps0 (W0 m ρ c) (Proc.devRef .tc main_v3) = _
  after_results
  rfl

/-- The source vector is untouched by the first two regions and the stretch between them. -/
theorem src_at4 (c : Dev nD) :
    W4 m ρ c (Proc.devRef .tc main_v1) = Glue.src (m ((c : Thread nD τ).loc main_arg1)) := by
  refine Eq.trans (W4_of_ne _ _ _ _ (by decide)) ?_
  back_over hostOps1
  refine Eq.trans (W2_of_ne _ _ _ _ (by decide)) ?_
  exact src_at1 m ρ c

/-- The destination vector is untouched by the first two regions and the stretch between them. -/
theorem dst_at4 (c : Dev nD) :
    W4 m ρ c (Proc.devRef .tc main_v3) = Glue.dst (m ((c : Thread nD τ).loc main_arg1)) := by
  refine Eq.trans (W4_of_ne _ _ _ _ (by decide)) ?_
  back_over hostOps1
  refine Eq.trans (W2_of_ne _ _ _ _ (by decide)) ?_
  exact dst_at1 m ρ c

/-- The third region finds the first region's result array as that region left it. -/
theorem at7_h (c : Dev nD) :
    V7 m ρ c main_v5 = (dat0 (V1 m ρ) c).arrAt 3 cfg0.N := by
  show W7 m ρ c (Proc.devRef .tc main_v5) = _
  back_over hostOps2_2; back_over hostOps2_1; back_over hostOps2
  exact hidden_at4 m ρ c

/-- At the third region's entry the edge states are what the second region left. -/
theorem at7_e (c : Dev nD) :
    V7 m ρ c main_v7 = (dat1 (V3 m ρ) c).arrAt 3 cfg1.N := by
  show W7 m ρ c (Proc.devRef .tc main_v7) = _
  back_over hostOps2_2; back_over hostOps2_1; back_over hostOps2
  exact edge_at4 m ρ c

/-- At the third region's entry the source vector is row 0 of the edge list. -/
theorem at7_src (c : Dev nD) :
    V7 m ρ c main_v1 = Glue.src (m ((c : Thread nD τ).loc main_arg1)) := by
  show W7 m ρ c (Proc.devRef .tc main_v1) = _
  back_over hostOps2_2; back_over hostOps2_1; back_over hostOps2
  exact src_at4 m ρ c

/-- The destination vector after the gather and the positive part, which do not write it. -/
theorem dst_at6 (c : Dev nD) :
    W6 m ρ c (Proc.devRef .tc main_v3) = Glue.dst (m ((c : Thread nD τ).loc main_arg1)) := by
  back_over hostOps2_1; back_over hostOps2
  exact dst_at4 m ρ c

/-- At the third region's entry the destination vector is row 1 of the edge list. -/
theorem at7_dst (c : Dev nD) :
    V7 m ρ c main_v3 = Glue.dst (m ((c : Thread nD τ).loc main_arg1)) := by
  show W7 m ρ c (Proc.devRef .tc main_v3) = _
  back_over hostOps2_2
  exact dst_at6 m ρ c

/-! ## One round of message passing on the host

The gather stretch leaves, for every edge, the source node's state plus the edge's state; the next stretch takes the
positive part; the last one sums every edge's message into its destination node's row, starting from zero. Each
stretch is first read from arbitrary contents `V`: its result is a function of the few buffers it reads. -/

section Stretches

variable (V : Valuation τ sig (Elt Ideal))

/-- The gather stretch, from any contents whose source vector, node states and edge states are known: every edge's
    source state (the index column made from the source vector) plus its own state. -/
theorem presum_of (ei : (⟨S2x1600000, .i32⟩ : BufTy).Contents (Elt Ideal))
    (h : (⟨S100000x128, .f32⟩ : BufTy).Contents (Elt Ideal)) (e : (⟨S1600000x128, .f32⟩ : BufTy).Contents (Elt Ideal))
    (hs : V (Proc.devRef .tc main_v1) = Glue.src ei) (hh : V (Proc.devRef .tc main_v5) = h)
    (he : V (Proc.devRef .tc main_v7) = e) :
    StableHlo.after hostOps2 V (Proc.devRef .tc main_v15)
      = (addf (F := Ideal) (φ := .f32) (Host.gather gather_S100000x128_S1600000x1_S1600000x128_1_0_n_n_0_1_1128 h (Glue.srcCol ei)) e
          : (⟨S1600000x128, .f32⟩ : BufTy).Contents (Elt Ideal)) := by
  after_results
  rw [hs, hh, he]
  rfl

/-- The positive-part stretch, from any contents: the maximum of what it reads with zero. -/
theorem message_of (x : (⟨S1600000x128, .f32⟩ : BufTy).Contents (Elt Ideal))
    (hx : V (Proc.devRef .tc main_v15) = x) :
    StableHlo.after hostOps2_1 V (Proc.devRef .tc main_v16)
      = (maximumf (F := Ideal) (φ := .f32) x (broadcastInDim S1600000x128 ![] bcast_S_S1600000x128 (constant (F := Ideal) S_ .f32 0x00000000#32))
          : (⟨S1600000x128, .f32⟩ : BufTy).Contents (Elt Ideal)) := by
  after_results
  rw [hx]
  rfl

/-- The summing stretch, from any contents whose destination vector and messages are known: the messages summed
    into their destination rows, from zero. -/
theorem agg_of (ei : (⟨S2x1600000, .i32⟩ : BufTy).Contents (Elt Ideal))
    (msg : (⟨S1600000x128, .f32⟩ : BufTy).Contents (Elt Ideal))
    (hd : V (Proc.devRef .tc main_v3) = Glue.dst ei) (hm : V (Proc.devRef .tc main_v16) = msg) :
    StableHlo.after hostOps2_2 V (Proc.devRef .tc main_v19)
      = (Host.scatterAdd scatter_S100000x128_S1600000x1_S1600000x128_1_0_0_1
          (broadcastInDim S100000x128 ![] bcast_S_S100000x128 (constant (F := Ideal) S_ .f32 0x00000000#32)) (Glue.dstCol ei) msg
          : (⟨S100000x128, .f32⟩ : BufTy).Contents (Elt Ideal)) := by
  after_results
  rw [hd, hm]
  rfl

/-- The same stretch lays the update's first bias vector out as one row. -/
theorem row1_of (b : (⟨S128, .f32⟩ : BufTy).Contents (Elt Ideal)) (hb : V (Proc.devRef .tc main_arg8) = b) :
    StableHlo.after hostOps2_2 V (Proc.devRef .tc main_v20) = Glue.rowOf b := by
  after_results
  rw [hb]
  rfl

/-- The same stretch lays the update's second bias vector out as one row. -/
theorem row2_of (b : (⟨S128, .f32⟩ : BufTy).Contents (Elt Ideal)) (hb : V (Proc.devRef .tc main_arg10) = b) :
    StableHlo.after hostOps2_2 V (Proc.devRef .tc main_v21) = Glue.rowOf b := by
  after_results
  rw [hb]
  rfl

end Stretches

/-- Every edge's source state plus its own state, after the gather stretch. -/
theorem presum_at5 (c : Dev nD) :
    W5 m ρ c (Proc.devRef .tc main_v15)
      = (addf (F := Ideal) (φ := .f32) (Host.gather gather_S100000x128_S1600000x1_S1600000x128_1_0_n_n_0_1_1128 ((dat0 (V1 m ρ) c).arrAt 3 cfg0.N)
          (Glue.srcCol (m ((c : Thread nD τ).loc main_arg1)))) ((dat1 (V3 m ρ) c).arrAt 3 cfg1.N)
          : (⟨S1600000x128, .f32⟩ : BufTy).Contents (Elt Ideal)) :=
  presum_of (W4 m ρ c) _ _ _ (src_at4 m ρ c) (hidden_at4 m ρ c) (edge_at4 m ρ c)

/-- Every edge's message, after the positive part. -/
theorem message_at6 (c : Dev nD) :
    W6 m ρ c (Proc.devRef .tc main_v16)
      = (maximumf (F := Ideal) (φ := .f32) (addf (F := Ideal) (φ := .f32) (Host.gather gather_S100000x128_S1600000x1_S1600000x128_1_0_n_n_0_1_1128 ((dat0 (V1 m ρ) c).arrAt 3 cfg0.N)
          (Glue.srcCol (m ((c : Thread nD τ).loc main_arg1)))) ((dat1 (V3 m ρ) c).arrAt 3 cfg1.N))
          (broadcastInDim S1600000x128 ![] bcast_S_S1600000x128 (constant (F := Ideal) S_ .f32 0x00000000#32))
          : (⟨S1600000x128, .f32⟩ : BufTy).Contents (Elt Ideal)) :=
  message_of (W5 m ρ c) _ (presum_at5 m ρ c)

/-- The third region finds the first round's aggregate of the first two regions' results. -/
theorem at7_agg (c : Dev nD) :
    V7 m ρ c main_v19 = Glue.agg (m ((c : Thread nD τ).loc main_arg1)) ((dat0 (V1 m ρ) c).arrAt 3 cfg0.N) ((dat1 (V3 m ρ) c).arrAt 3 cfg1.N) :=
  (agg_of (W6 m ρ c) _ _ (dst_at6 m ρ c) (message_at6 m ρ c)).trans (by unfold Glue.agg; rfl)

/-! ## The update's weights and biases at the third region's entry -/

/-- The update's first weights reach the third region as launched. -/
theorem at7_W1 (c : Dev nD) :
    V7 m ρ c main_arg7 = m ((c : Thread nD τ).loc main_arg7) := by
  show W7 m ρ c (Proc.devRef .tc main_arg7) = _
  launched_at7

/-- The update's first bias vector just before the last stretch, still as launched. -/
theorem bias1_at6 (c : Dev nD) :
    W6 m ρ c (Proc.devRef .tc main_arg8) = m ((c : Thread nD τ).loc main_arg8) := by
  back_over hostOps2_1; back_over hostOps2
  refine Eq.trans (W4_of_ne _ _ _ _ (by decide)) ?_
  back_over hostOps1
  refine Eq.trans (W2_of_ne _ _ _ _ (by decide)) ?_
  back_over hostOps0
  rfl

/-- The update's second bias vector just before the last stretch, still as launched. -/
theorem bias2_at6 (c : Dev nD) :
    W6 m ρ c (Proc.devRef .tc main_arg10) = m ((c : Thread nD τ).loc main_arg10) := by
  back_over hostOps2_1; back_over hostOps2
  refine Eq.trans (W4_of_ne _ _ _ _ (by decide)) ?_
  back_over hostOps1
  refine Eq.trans (W2_of_ne _ _ _ _ (by decide)) ?_
  back_over hostOps0
  rfl

/-- The update's first bias reaches the third region as one row. -/
theorem at7_b1 (c : Dev nD) :
    V7 m ρ c main_v20 = Glue.rowOf (m ((c : Thread nD τ).loc main_arg8)) := by
  exact row1_of (W6 m ρ c) _ (bias1_at6 m ρ c)

/-- The update's second weights reach the third region as launched. -/
theorem at7_W2 (c : Dev nD) :
    V7 m ρ c main_arg9 = m ((c : Thread nD τ).loc main_arg9) := by
  show W7 m ρ c (Proc.devRef .tc main_arg9) = _
  launched_at7

/-- The update's second bias reaches the third region as one row. -/
theorem at7_b2 (c : Dev nD) :
    V7 m ρ c main_v21 = Glue.rowOf (m ((c : Thread nD τ).loc main_arg10)) := by
  exact row2_of (W6 m ρ c) _ (bias2_at6 m ρ c)

/-- The update's first bias vector is still as launched at the third region's entry. -/
theorem at7_b1v (c : Dev nD) :
    V7 m ρ c main_arg8 = m ((c : Thread nD τ).loc main_arg8) := by
  show W7 m ρ c (Proc.devRef .tc main_arg8) = _
  back_over hostOps2_2
  exact bias1_at6 m ρ c

/-- The update's second bias vector is still as launched at the third region's entry. -/
theorem at7_b2v (c : Dev nD) :
    V7 m ρ c main_arg10 = m ((c : Thread nD τ).loc main_arg10) := by
  show W7 m ρ c (Proc.devRef .tc main_arg10) = _
  back_over hostOps2_2
  exact bias2_at6 m ρ c

end Cert.KernelIdeal.BoundaryA

end
-- ==== Proof.BoundaryB.lean ====
/-
  What the fourth region finds in its operand arrays: the third region's result through the positive part, the second
  round's aggregate of it with the unchanged edge states, and the shared weights and bias rows, read back through the
  four stretches of host operations between the third and the fourth region.
-/
import proofs.«136925_j70463233458547_1_alg».proof.Proof.Gen.KernelIdeal.Frame
import proofs.«136925_j70463233458547_1_alg».proof.Proof.Glue
import proofs.«136925_j70463233458547_1_alg».proof.Proof.BoundaryA
import Idealize.ShloMosaic.Lib.StableHlo.Run

set_option maxRecDepth 16384

noncomputable section

namespace Cert.KernelIdeal.BoundaryB

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- A buffer that no operation of a stretch writes holds after the stretch what it held before it. -/
local macro "unwritten_by " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

/-! ## What each stretch of host operations computes, at any contents before it -/

section Stretches

variable (F : Valuation τ sig (Elt Ideal)) (ei : (⟨S2x1600000, .i32⟩ : BufTy).Contents (Elt Ideal))
  (h : (⟨S100000x128, .f32⟩ : BufTy).Contents (Elt Ideal)) (e : (⟨S1600000x128, .f32⟩ : BufTy).Contents (Elt Ideal))

/-- One round's sums: for every edge, the node state at the edge's source plus the edge's own state. -/
def sums : (⟨S1600000x128, .f32⟩ : BufTy).Contents (Elt Ideal) :=
  addf (F := Ideal) (φ := .f32) (Host.gather gather_S100000x128_S1600000x1_S1600000x128_1_0_n_n_0_1_1128 h (Glue.srcCol ei)) e

/-- One round's messages: the positive parts of the sums. -/
def msgs : (⟨S1600000x128, .f32⟩ : BufTy).Contents (Elt Ideal) :=
  maximumf (F := Ideal) (φ := .f32) (sums ei h e) (broadcastInDim S1600000x128 ![] bcast_S_S1600000x128 (constant (F := Ideal) S_ .f32 0x00000000#32))

/-- One round's aggregate is the messages summed into their destination rows, from zero. -/
theorem agg_eq_scatter_msgs :
    Glue.agg ei h e = Host.scatterAdd scatter_S100000x128_S1600000x1_S1600000x128_1_0_0_1
      (broadcastInDim S100000x128 ![] bcast_S_S100000x128 (constant (F := Ideal) S_ .f32 0x00000000#32))
      (Glue.dstCol ei) (msgs ei h e) := rfl

/-- The first stretch writes the pointwise maximum of the third region's result array with zero. -/
theorem relu_of :
    StableHlo.after hostOps3 F (Proc.devRef .tc main_v23) = Glue.relu (F (Proc.devRef .tc main_v22)) := by
  after_results
  dsimp only [StableHlo.TRef.of, StableHlo.TRef.toBuf, StableHlo.TRef.ofBuf, cast_eq]
  rfl

/-- The second stretch wraps the source indices, gathers the node rows there and adds the edge states. -/
theorem sums_of (hsrc : F (Proc.devRef .tc main_v1) = Glue.src ei) :
    StableHlo.after hostOps3_1 F (Proc.devRef .tc main_v31)
      = sums ei (F (Proc.devRef .tc main_v23)) (F (Proc.devRef .tc main_v7)) := by
  after_results
  rw [hsrc]
  rfl

/-- The third stretch takes the positive part of the sums. -/
theorem msgs_of (hsum : F (Proc.devRef .tc main_v31) = sums ei h e) :
    StableHlo.after hostOps3_2 F (Proc.devRef .tc main_v32) = msgs ei h e := by
  after_results
  dsimp only [StableHlo.TRef.of, StableHlo.TRef.toBuf, StableHlo.TRef.ofBuf, cast_eq]
  rw [hsum]
  rfl

/-- The fourth stretch adds every message into its destination node's row, starting from zero. -/
theorem agg_of (hdst : F (Proc.devRef .tc main_v3) = Glue.dst ei) (hmsg : F (Proc.devRef .tc main_v32) = msgs ei h e) :
    StableHlo.after hostOps3_3 F (Proc.devRef .tc main_v35) = Glue.agg ei h e := by
  after_results
  rw [hdst, hmsg]
  rfl

/-- It also lays the first bias vector out as one row. -/
theorem row1_of :
    StableHlo.after hostOps3_3 F (Proc.devRef .tc main_v36) = Glue.rowOf (F (Proc.devRef .tc main_arg8)) := by
  after_results
  rfl

/-- And the second. -/
theorem row2_of :
    StableHlo.after hostOps3_3 F (Proc.devRef .tc main_v37) = Glue.rowOf (F (Proc.devRef .tc main_arg10)) := by
  after_results
  rfl

end Stretches

/-! ## The third region's exit -/

/-- The third region leaves its result array holding the fold of its write-backs. -/
theorem res8 (c : Dev nD) :
    W8 m ρ c (Proc.devRef .tc main_v22) = (dat2 (V7 m ρ) c).arrAt 6 cfg2.N :=
  W8_arr m ρ c 6

/-- The source indices are not among the third region's arrays: it leaves them as it found them. -/
theorem src8 (c : Dev nD) :
    W8 m ρ c (Proc.devRef .tc main_v1) = Glue.src (m ((c : Thread nD τ).loc main_arg1)) :=
  (W8_of_ne m ρ c main_v1 (by decide)).trans (BoundaryA.at7_src m ρ c)

/-- Nor are the destination indices. -/
theorem dst8 (c : Dev nD) :
    W8 m ρ c (Proc.devRef .tc main_v3) = Glue.dst (m ((c : Thread nD τ).loc main_arg1)) :=
  (W8_of_ne m ρ c main_v3 (by decide)).trans (BoundaryA.at7_dst m ρ c)

/-- Nor are the edge states. -/
theorem edge8 (c : Dev nD) :
    W8 m ρ c (Proc.devRef .tc main_v7) = (dat1 (V3 m ρ) c).arrAt 3 cfg1.N :=
  (W8_of_ne m ρ c main_v7 (by decide)).trans (BoundaryA.at7_e m ρ c)

/-- Nor is the first bias vector. -/
theorem bias1_8 (c : Dev nD) :
    W8 m ρ c (Proc.devRef .tc main_arg8) = m ((c : Thread nD τ).loc main_arg8) :=
  (W8_of_ne m ρ c main_arg8 (by decide)).trans (BoundaryA.at7_b1v m ρ c)

/-- Nor is the second bias vector. -/
theorem bias2_8 (c : Dev nD) :
    W8 m ρ c (Proc.devRef .tc main_arg10) = m ((c : Thread nD τ).loc main_arg10) :=
  (W8_of_ne m ρ c main_arg10 (by decide)).trans (BoundaryA.at7_b2v m ρ c)

/-- The first weight matrix is an input of the third region: an input array ends as it was entered. -/
theorem weight1_8 (c : Dev nD) :
    W8 m ρ c (Proc.devRef .tc main_arg7) = m ((c : Thread nD τ).loc main_arg7) :=
  ((W8_arr m ρ c 2).trans (((dat2 (V7 m ρ) c).arrAt_in 2 rfl _).trans (A_eq2 (V7 m ρ) c 2))).trans
    (BoundaryA.at7_W1 m ρ c)

/-- So is the second weight matrix. -/
theorem weight2_8 (c : Dev nD) :
    W8 m ρ c (Proc.devRef .tc main_arg9) = m ((c : Thread nD τ).loc main_arg9) :=
  ((W8_arr m ρ c 4).trans (((dat2 (V7 m ρ) c).arrAt_in 4 rfl _).trans (A_eq2 (V7 m ρ) c 4))).trans
    (BoundaryA.at7_W2 m ρ c)

/-! ## After the positive part of the node states -/

theorem relu9 (c : Dev nD) :
    W9 m ρ c (Proc.devRef .tc main_v23) = Glue.relu ((dat2 (V7 m ρ) c).arrAt 6 cfg2.N) :=
  (relu_of (W8 m ρ c)).trans (congrArg Glue.relu (res8 m ρ c))

theorem src9 (c : Dev nD) :
    W9 m ρ c (Proc.devRef .tc main_v1) = Glue.src (m ((c : Thread nD τ).loc main_arg1)) := by
  have h : W9 m ρ c (Proc.devRef .tc main_v1) = W8 m ρ c (Proc.devRef .tc main_v1) := by unwritten_by hostOps3
  exact h.trans (src8 m ρ c)

theorem dst9 (c : Dev nD) :
    W9 m ρ c (Proc.devRef .tc main_v3) = Glue.dst (m ((c : Thread nD τ).loc main_arg1)) := by
  have h : W9 m ρ c (Proc.devRef .tc main_v3) = W8 m ρ c (Proc.devRef .tc main_v3) := by unwritten_by hostOps3
  exact h.trans (dst8 m ρ c)

theorem edge9 (c : Dev nD) :
    W9 m ρ c (Proc.devRef .tc main_v7) = (dat1 (V3 m ρ) c).arrAt 3 cfg1.N := by
  have h : W9 m ρ c (Proc.devRef .tc main_v7) = W8 m ρ c (Proc.devRef .tc main_v7) := by unwritten_by hostOps3
  exact h.trans (edge8 m ρ c)

/-! ## After the gather and the sum -/

theorem sums10 (c : Dev nD) :
    W10 m ρ c (Proc.devRef .tc main_v31) =
      sums (m ((c : Thread nD τ).loc main_arg1)) (Glue.relu ((dat2 (V7 m ρ) c).arrAt 6 cfg2.N))
        ((dat1 (V3 m ρ) c).arrAt 3 cfg1.N) := by
  refine (sums_of (W9 m ρ c) _ (src9 m ρ c)).trans ?_
  rw [relu9, edge9]

theorem dst10 (c : Dev nD) :
    W10 m ρ c (Proc.devRef .tc main_v3) = Glue.dst (m ((c : Thread nD τ).loc main_arg1)) := by
  have h : W10 m ρ c (Proc.devRef .tc main_v3) = W9 m ρ c (Proc.devRef .tc main_v3) := by unwritten_by hostOps3_1
  exact h.trans (dst9 m ρ c)

/-! ## After the positive part of the sums -/

theorem msgs11 (c : Dev nD) :
    W11 m ρ c (Proc.devRef .tc main_v32) =
      msgs (m ((c : Thread nD τ).loc main_arg1)) (Glue.relu ((dat2 (V7 m ρ) c).arrAt 6 cfg2.N))
        ((dat1 (V3 m ρ) c).arrAt 3 cfg1.N) :=
  msgs_of (W10 m ρ c) _ _ _ (sums10 m ρ c)

theorem dst11 (c : Dev nD) :
    W11 m ρ c (Proc.devRef .tc main_v3) = Glue.dst (m ((c : Thread nD τ).loc main_arg1)) := by
  have h : W11 m ρ c (Proc.devRef .tc main_v3) = W10 m ρ c (Proc.devRef .tc main_v3) := by unwritten_by hostOps3_2
  exact h.trans (dst10 m ρ c)

/-! ## The buffers the later stretches do not write, carried to the last one -/

theorem relu11 (c : Dev nD) :
    W11 m ρ c (Proc.devRef .tc main_v23) = Glue.relu ((dat2 (V7 m ρ) c).arrAt 6 cfg2.N) := by
  have h11 : W11 m ρ c (Proc.devRef .tc main_v23) = W10 m ρ c (Proc.devRef .tc main_v23) := by unwritten_by hostOps3_2
  have h10 : W10 m ρ c (Proc.devRef .tc main_v23) = W9 m ρ c (Proc.devRef .tc main_v23) := by unwritten_by hostOps3_1
  exact h11.trans (h10.trans (relu9 m ρ c))

theorem weight1_11 (c : Dev nD) :
    W11 m ρ c (Proc.devRef .tc main_arg7) = m ((c : Thread nD τ).loc main_arg7) := by
  have h11 : W11 m ρ c (Proc.devRef .tc main_arg7) = W10 m ρ c (Proc.devRef .tc main_arg7) := by unwritten_by hostOps3_2
  have h10 : W10 m ρ c (Proc.devRef .tc main_arg7) = W9 m ρ c (Proc.devRef .tc main_arg7) := by unwritten_by hostOps3_1
  have h9 : W9 m ρ c (Proc.devRef .tc main_arg7) = W8 m ρ c (Proc.devRef .tc main_arg7) := by unwritten_by hostOps3
  exact h11.trans (h10.trans (h9.trans (weight1_8 m ρ c)))

theorem weight2_11 (c : Dev nD) :
    W11 m ρ c (Proc.devRef .tc main_arg9) = m ((c : Thread nD τ).loc main_arg9) := by
  have h11 : W11 m ρ c (Proc.devRef .tc main_arg9) = W10 m ρ c (Proc.devRef .tc main_arg9) := by unwritten_by hostOps3_2
  have h10 : W10 m ρ c (Proc.devRef .tc main_arg9) = W9 m ρ c (Proc.devRef .tc main_arg9) := by unwritten_by hostOps3_1
  have h9 : W9 m ρ c (Proc.devRef .tc main_arg9) = W8 m ρ c (Proc.devRef .tc main_arg9) := by unwritten_by hostOps3
  exact h11.trans (h10.trans (h9.trans (weight2_8 m ρ c)))

theorem bias1_11 (c : Dev nD) :
    W11 m ρ c (Proc.devRef .tc main_arg8) = m ((c : Thread nD τ).loc main_arg8) := by
  have h11 : W11 m ρ c (Proc.devRef .tc main_arg8) = W10 m ρ c (Proc.devRef .tc main_arg8) := by unwritten_by hostOps3_2
  have h10 : W10 m ρ c (Proc.devRef .tc main_arg8) = W9 m ρ c (Proc.devRef .tc main_arg8) := by unwritten_by hostOps3_1
  have h9 : W9 m ρ c (Proc.devRef .tc main_arg8) = W8 m ρ c (Proc.devRef .tc main_arg8) := by unwritten_by hostOps3
  exact h11.trans (h10.trans (h9.trans (bias1_8 m ρ c)))

theorem bias2_11 (c : Dev nD) :
    W11 m ρ c (Proc.devRef .tc main_arg10) = m ((c : Thread nD τ).loc main_arg10) := by
  have h11 : W11 m ρ c (Proc.devRef .tc main_arg10) = W10 m ρ c (Proc.devRef .tc main_arg10) := by unwritten_by hostOps3_2
  have h10 : W10 m ρ c (Proc.devRef .tc main_arg10) = W9 m ρ c (Proc.devRef .tc main_arg10) := by unwritten_by hostOps3_1
  have h9 : W9 m ρ c (Proc.devRef .tc main_arg10) = W8 m ρ c (Proc.devRef .tc main_arg10) := by unwritten_by hostOps3
  exact h11.trans (h10.trans (h9.trans (bias2_8 m ρ c)))

/-! ## The fourth region's entry -/

/-- The fourth region finds the positive part of the third region's result. -/
theorem at12_h (c : Dev nD) :
    V12 m ρ c main_v23 = Glue.relu ((dat2 (V7 m ρ) c).arrAt 6 cfg2.N) := by
  have h12 : W12 m ρ c (Proc.devRef .tc main_v23) = W11 m ρ c (Proc.devRef .tc main_v23) := by unwritten_by hostOps3_3
  exact h12.trans (relu11 m ρ c)

/-- The fourth region finds the second round's aggregate: of the positive part of the first round's states and the same edge states. -/
theorem at12_agg (c : Dev nD) :
    V12 m ρ c main_v35 = Glue.agg (m ((c : Thread nD τ).loc main_arg1)) (Glue.relu ((dat2 (V7 m ρ) c).arrAt 6 cfg2.N)) ((dat1 (V3 m ρ) c).arrAt 3 cfg1.N) :=
  agg_of (W11 m ρ c) _ _ _ (dst11 m ρ c) (msgs11 m ρ c)

/-- The update's first weights reach the fourth region as launched. -/
theorem at12_W1 (c : Dev nD) :
    V12 m ρ c main_arg7 = m ((c : Thread nD τ).loc main_arg7) := by
  have h12 : W12 m ρ c (Proc.devRef .tc main_arg7) = W11 m ρ c (Proc.devRef .tc main_arg7) := by unwritten_by hostOps3_3
  exact h12.trans (weight1_11 m ρ c)

/-- The update's first bias reaches the fourth region as one row. -/
theorem at12_b1 (c : Dev nD) :
    V12 m ρ c main_v36 = Glue.rowOf (m ((c : Thread nD τ).loc main_arg8)) :=
  (row1_of (W11 m ρ c)).trans (congrArg Glue.rowOf (bias1_11 m ρ c))

/-- The update's second weights reach the fourth region as launched. -/
theorem at12_W2 (c : Dev nD) :
    V12 m ρ c main_arg9 = m ((c : Thread nD τ).loc main_arg9) := by
  have h12 : W12 m ρ c (Proc.devRef .tc main_arg9) = W11 m ρ c (Proc.devRef .tc main_arg9) := by unwritten_by hostOps3_3
  exact h12.trans (weight2_11 m ρ c)

/-- The update's second bias reaches the fourth region as one row. -/
theorem at12_b2 (c : Dev nD) :
    V12 m ρ c main_v37 = Glue.rowOf (m ((c : Thread nD τ).loc main_arg10)) :=
  (row2_of (W11 m ρ c)).trans (congrArg Glue.rowOf (bias2_11 m ρ c))

end Cert.KernelIdeal.BoundaryB

end
-- ==== Proof.KernelValue.lean ====
/-
  The kernel's result as the network of the specification. The result buffer ends at what the fourth region leaves
  in its output array; each region's output array is the specification's row-local function of the arrays the region
  found (the four region lemmas), and what each region found is the host operations' functions of the earlier
  regions' outputs and of the launch contents (the boundary lemmas). Substituting from the last region back to the
  launch gives the two feature maps, the first round, the positive part, and the second round, of the argument arrays.
-/
import proofs.«136925_j70463233458547_1_alg».proof.Proof.Gen.KernelIdeal.Frame
import proofs.«136925_j70463233458547_1_alg».proof.Proof.Spec
import proofs.«136925_j70463233458547_1_alg».proof.Proof.Glue
import proofs.«136925_j70463233458547_1_alg».proof.Proof.Region0
import proofs.«136925_j70463233458547_1_alg».proof.Proof.Region1
import proofs.«136925_j70463233458547_1_alg».proof.Proof.Region2
import proofs.«136925_j70463233458547_1_alg».proof.Proof.Region3
import proofs.«136925_j70463233458547_1_alg».proof.Proof.BoundaryA
import proofs.«136925_j70463233458547_1_alg».proof.Proof.BoundaryB

noncomputable section

namespace Cert.KernelIdeal.KernelValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The node states after the first feature map: the first region's output array. -/
theorem nodes0 (c : Dev nD) :
    (dat0 (V1 m ρ) c).arrAt 3 cfg0.N
      = Gine.lin (m ((c : Thread nD τ).loc main_arg0)) (m ((c : Thread nD τ).loc main_arg3)) (Glue.rowOf (m ((c : Thread nD τ).loc main_arg4))) := by
  rw [Region0.value (V1 m ρ) c, BoundaryA.at1_x, BoundaryA.at1_Win, BoundaryA.at1_bin]

/-- The edge states: the second region's output array. -/
theorem edges (c : Dev nD) :
    (dat1 (V3 m ρ) c).arrAt 3 cfg1.N
      = Gine.lin (m ((c : Thread nD τ).loc main_arg2)) (m ((c : Thread nD τ).loc main_arg5)) (Glue.rowOf (m ((c : Thread nD τ).loc main_arg6))) := by
  rw [Region1.value (V3 m ρ) c, BoundaryA.at3_ea, BoundaryA.at3_We, BoundaryA.at3_be]

/-- The node states after the first round: the third region's output array. -/
theorem nodes1 (c : Dev nD) :
    (dat2 (V7 m ρ) c).arrAt 6 cfg2.N
      = Gine.conv (Glue.agg (m ((c : Thread nD τ).loc main_arg1)))
          (Gine.lin (m ((c : Thread nD τ).loc main_arg0)) (m ((c : Thread nD τ).loc main_arg3)) (Glue.rowOf (m ((c : Thread nD τ).loc main_arg4))))
          (Gine.lin (m ((c : Thread nD τ).loc main_arg2)) (m ((c : Thread nD τ).loc main_arg5)) (Glue.rowOf (m ((c : Thread nD τ).loc main_arg6))))
          (m ((c : Thread nD τ).loc main_arg7)) (Glue.rowOf (m ((c : Thread nD τ).loc main_arg8))) (m ((c : Thread nD τ).loc main_arg9)) (Glue.rowOf (m ((c : Thread nD τ).loc main_arg10))) := by
  rw [Region2.value (V7 m ρ) c, BoundaryA.at7_h, BoundaryA.at7_agg, BoundaryA.at7_W1, BoundaryA.at7_b1,
    BoundaryA.at7_W2, BoundaryA.at7_b2, nodes0, edges]
  rfl

/-- The result buffer's final contents are the network of the argument arrays. -/
theorem result_eq (c : Dev nD) :
    W13 m ρ c (Proc.devRef .tc main_v38)
      = Gine.net (Glue.agg (m ((c : Thread nD τ).loc main_arg1))) Glue.relu (m ((c : Thread nD τ).loc main_arg0)) (m ((c : Thread nD τ).loc main_arg2))
          (m ((c : Thread nD τ).loc main_arg3)) (Glue.rowOf (m ((c : Thread nD τ).loc main_arg4))) (m ((c : Thread nD τ).loc main_arg5)) (Glue.rowOf (m ((c : Thread nD τ).loc main_arg6)))
          (m ((c : Thread nD τ).loc main_arg7)) (Glue.rowOf (m ((c : Thread nD τ).loc main_arg8))) (m ((c : Thread nD τ).loc main_arg9)) (Glue.rowOf (m ((c : Thread nD τ).loc main_arg10))) := by
  refine (W13_arr m ρ c 6).trans ?_
  rw [Region3.value (V12 m ρ) c, BoundaryB.at12_h, BoundaryB.at12_agg, BoundaryB.at12_W1, BoundaryB.at12_b1,
    BoundaryB.at12_W2, BoundaryB.at12_b2, nodes1, edges]
  rfl

end Cert.KernelIdeal.KernelValue

end
-- ==== Proof.RefValue.lean ====
/-
  The reference's result as the network of the specification. Its host program computes, of whole arrays: the two
  affine feature maps (a dot product and a bias vector spread over the rows), then twice the aggregation (gather,
  add, positive part, scatter-add) followed by the node update (add, dot, bias, positive part, dot, bias), with the
  positive part of the node states between the two rounds. Read one operation at a time at an index, each affine
  stage is the specification's `lin`, each update its `upd`; the aggregation and the positive part between the
  rounds are the program's own host operations, named here as whole-array functions and never opened.
-/
import proofs.«136925_j70463233458547_1_alg».proof.Proof.Gen.ReferenceIdeal.Run
import proofs.«136925_j70463233458547_1_alg».proof.Proof.Gen.ReferenceIdeal.Read
import proofs.«136925_j70463233458547_1_alg».proof.Proof.Spec
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open scoped BigOperators

/-- The source node of every edge: row 0 of the edge list, as a vector. -/
def src (ei : (⟨S2x1600000, .i32⟩ : BufTy).Contents (Elt Ideal)) : (⟨S1600000, .i32⟩ : BufTy).Contents (Elt Ideal) :=
  shapeCast _ (extractStridedSlice S1x1600000 ![0, 0] ei slices_S2x1600000_S1x1600000_0_0) shapeCasts_S1x1600000_S1600000

/-- The destination node of every edge: row 1 of the edge list, as a vector. -/
def dst (ei : (⟨S2x1600000, .i32⟩ : BufTy).Contents (Elt Ideal)) : (⟨S1600000, .i32⟩ : BufTy).Contents (Elt Ideal) :=
  shapeCast _ (extractStridedSlice S1x1600000 ![1, 0] ei slices_S2x1600000_S1x1600000_1_0) shapeCasts_S1x1600000_S1600000

/-- The gather's index column: each source index, a negative one counted from the end (plus the node count). -/
def srcCol (ei : (⟨S2x1600000, .i32⟩ : BufTy).Contents (Elt Ideal)) : (⟨S1600000x1, .i32⟩ : BufTy).Contents (Elt Ideal) :=
  broadcastInDim S1600000x1 ![0] bcast_S1600000_S1600000x1_0
    (select (cmpi .slt (src ei) (broadcastInDim S1600000 ![] bcast_S_S1600000 (constantI S_ 32 0#32)))
      (addi (src ei) (broadcastInDim S1600000 ![] bcast_S_S1600000 (constantI S_ 32 100000#32))) (src ei))

/-- The scatter's index column: each destination index. -/
def dstCol (ei : (⟨S2x1600000, .i32⟩ : BufTy).Contents (Elt Ideal)) : (⟨S1600000x1, .i32⟩ : BufTy).Contents (Elt Ideal) :=
  broadcastInDim S1600000x1 ![0] bcast_S1600000_S1600000x1_0 (dst ei)

/-- One round's aggregate: every edge's message `max (h[src] + e) 0`, summed into its destination node's row. -/
def agg (ei : (⟨S2x1600000, .i32⟩ : BufTy).Contents (Elt Ideal)) (h : (⟨S100000x128, .f32⟩ : BufTy).Contents (Elt Ideal))
    (e : (⟨S1600000x128, .f32⟩ : BufTy).Contents (Elt Ideal)) : (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32)) (dstCol ei)
    (maximumf (addf (Host.gather gather_S100000x128_S1600000x1_S1600000x128_1_0_n_n_0_1_1128 h (srcCol ei)) e)
      (broadcastInDim S1600000x128 ![] bcast_S_S1600000x128 (constant (F := Ideal) S_ .f32 0x00000000#32)))

/-- The positive part of the node states between the two rounds. -/
def relu (h : (⟨S100000x128, .f32⟩ : BufTy).Contents (Elt Ideal)) : (⟨S100000x128, .f32⟩ : BufTy).Contents (Elt Ideal) :=
  maximumf h (broadcastInDim S100000x128 ![] bcast_S_S100000x128 (constant (F := Ideal) S_ .f32 0x00000000#32))

/-- A bias vector laid out as one row. -/
def rowOf (b : (⟨S128, .f32⟩ : BufTy).Contents (Elt Ideal)) : (⟨S1x128, .f32⟩ : BufTy).Contents (Elt Ideal) :=
  broadcastInDim S1x128 ![1] bcast_S128_S1x128_1 b

/-! ## Indices by coordinates

Each dot product reads its left operand at (row of the result index, k) and its right operand at (k, column of the
result index); each bias, spread over the rows, is read at (0, column). -/

theorem nodeMap_left (i : S100000x128.Idx) (k : Fin 24) : Read.lidx_main_v4 i k = ix2 (Gine.row i) k :=
  funext fun a => by match a with | ⟨0, _⟩ => rfl | ⟨1, _⟩ => rfl
theorem nodeMap_right (i : S100000x128.Idx) (k : Fin 24) : Read.ridx_main_v4 i k = ix2 k (Gine.col i) :=
  funext fun a => by match a with | ⟨0, _⟩ => rfl | ⟨1, _⟩ => rfl
theorem nodeMap_bias (i : S100000x128.Idx) : Read.idx_main_v6 i = ix2 (0 : Fin 1) (Gine.col i) :=
  funext fun a => by match a with | ⟨0, _⟩ => rfl | ⟨1, _⟩ => rfl

theorem edgeMap_left (i : S1600000x128.Idx) (k : Fin 2) : Read.lidx_main_v8 i k = ix2 (Gine.row i) k :=
  funext fun a => by match a with | ⟨0, _⟩ => rfl | ⟨1, _⟩ => rfl
theorem edgeMap_right (i : S1600000x128.Idx) (k : Fin 2) : Read.ridx_main_v8 i k = ix2 k (Gine.col i) :=
  funext fun a => by match a with | ⟨0, _⟩ => rfl | ⟨1, _⟩ => rfl
theorem edgeMap_bias (i : S1600000x128.Idx) : Read.idx_main_v10 i = ix2 (0 : Fin 1) (Gine.col i) :=
  funext fun a => by match a with | ⟨0, _⟩ => rfl | ⟨1, _⟩ => rfl

theorem round1_layer1_left (i : S100000x128.Idx) (k : Fin 128) : Read.lidx_main_v25 i k = ix2 (Gine.row i) k :=
  funext fun a => by match a with | ⟨0, _⟩ => rfl | ⟨1, _⟩ => rfl
theorem round1_layer1_right (i : S100000x128.Idx) (k : Fin 128) : Read.ridx_main_v25 i k = ix2 k (Gine.col i) :=
  funext fun a => by match a with | ⟨0, _⟩ => rfl | ⟨1, _⟩ => rfl
theorem round1_layer1_bias (i : S100000x128.Idx) : Read.idx_main_v27 i = ix2 (0 : Fin 1) (Gine.col i) :=
  funext fun a => by match a with | ⟨0, _⟩ => rfl | ⟨1, _⟩ => rfl

theorem round1_layer2_left (i : S100000x128.Idx) (k : Fin 128) : Read.lidx_main_v31 i k = ix2 (Gine.row i) k :=
  funext fun a => by match a with | ⟨0, _⟩ => rfl | ⟨1, _⟩ => rfl
theorem round1_layer2_right (i : S100000x128.Idx) (k : Fin 128) : Read.ridx_main_v31 i k = ix2 k (Gine.col i) :=
  funext fun a => by match a with | ⟨0, _⟩ => rfl | ⟨1, _⟩ => rfl
theorem round1_layer2_bias (i : S100000x128.Idx) : Read.idx_main_v33 i = ix2 (0 : Fin 1) (Gine.col i) :=
  funext fun a => by match a with | ⟨0, _⟩ => rfl | ⟨1, _⟩ => rfl

theorem round2_layer1_left (i : S100000x128.Idx) (k : Fin 128) : Read.lidx_main_v49 i k = ix2 (Gine.row i) k :=
  funext fun a => by match a with | ⟨0, _⟩ => rfl | ⟨1, _⟩ => rfl
theorem round2_layer1_right (i : S100000x128.Idx) (k : Fin 128) : Read.ridx_main_v49 i k = ix2 k (Gine.col i) :=
  funext fun a => by match a with | ⟨0, _⟩ => rfl | ⟨1, _⟩ => rfl
theorem round2_layer1_bias (i : S100000x128.Idx) : Read.idx_main_v51 i = ix2 (0 : Fin 1) (Gine.col i) :=
  funext fun a => by match a with | ⟨0, _⟩ => rfl | ⟨1, _⟩ => rfl

theorem round2_layer2_left (i : S100000x128.Idx) (k : Fin 128) : Read.lidx_main_v55 i k = ix2 (Gine.row i) k :=
  funext fun a => by match a with | ⟨0, _⟩ => rfl | ⟨1, _⟩ => rfl
theorem round2_layer2_right (i : S100000x128.Idx) (k : Fin 128) : Read.ridx_main_v55 i k = ix2 k (Gine.col i) :=
  funext fun a => by match a with | ⟨0, _⟩ => rfl | ⟨1, _⟩ => rfl
theorem round2_layer2_bias (i : S100000x128.Idx) : Read.idx_main_v57 i = ix2 (0 : Fin 1) (Gine.col i) :=
  funext fun a => by match a with | ⟨0, _⟩ => rfl | ⟨1, _⟩ => rfl

/-! ## The two affine feature maps -/

/-- The node features' map: a 24-term dot product per entry plus the bias row's entry of that column. -/
theorem nodeLin_eq (x0 : (⟨S100000x24, .f32⟩ : BufTy).Contents (Elt Ideal)) (x3 : (⟨S24x128, .f32⟩ : BufTy).Contents (Elt Ideal)) (x4 : (⟨S128, .f32⟩ : BufTy).Contents (Elt Ideal)) :
    Read.val_main_v7 (F := Ideal) x0 x3 x4 = Gine.lin x0 x3 (rowOf x4) := by
  funext i
  rw [Read.val_main_v7_apply, Read.val_main_v4_apply, Read.val_main_v6_apply]
  simp only [nodeMap_left, nodeMap_right, nodeMap_bias]
  rfl

/-- The edge features' map: a 2-term dot product per entry plus the bias row's entry of that column. -/
theorem edgeLin_eq (x2 : (⟨S1600000x2, .f32⟩ : BufTy).Contents (Elt Ideal)) (x5 : (⟨S2x128, .f32⟩ : BufTy).Contents (Elt Ideal)) (x6 : (⟨S128, .f32⟩ : BufTy).Contents (Elt Ideal)) :
    Read.val_main_v11 (F := Ideal) x2 x5 x6 = Gine.lin x2 x5 (rowOf x6) := by
  funext i
  rw [Read.val_main_v11_apply, Read.val_main_v8_apply, Read.val_main_v10_apply]
  simp only [edgeMap_left, edgeMap_right, edgeMap_bias]
  rfl

/-! ## The node update at an index -/

/-- The update read at an index: row `p`, column `q` is the sum over `k` of the hidden activation `(p, k)` times
    `W2 (k, q)`, plus `b2 (0, q)`; the hidden activation is the positive part of the sum over `j` of
    `(h + a) (p, j) * W1 (j, k)` plus `b1 (0, k)`. -/
theorem upd_at {M : Nat} (h a : Gine.Mat M 128) (W1 : Gine.Mat 128 128) (b1 : Gine.Mat 1 128) (W2 : Gine.Mat 128 128)
    (b2 : Gine.Mat 1 128) (i : (⟨2, ![M, 128]⟩ : Shape).Idx) :
    Gine.upd h a W1 b1 W2 b2 i
      = (∑ k : Fin 128, max ((∑ j : Fin 128, (h (ix2 (Gine.row i) j) + a (ix2 (Gine.row i) j)) * W1 (ix2 j k))
            + b1 (ix2 (0 : Fin 1) k)) Gine.zero32 * W2 (ix2 k (Gine.col i))) + b2 (ix2 (0 : Fin 1) (Gine.col i)) := rfl

/-- The first round's update is the specification's, of the node states and their aggregate. -/
theorem upd1_eq (x0 : (⟨S100000x24, .f32⟩ : BufTy).Contents (Elt Ideal)) (x1 : (⟨S2x1600000, .i32⟩ : BufTy).Contents (Elt Ideal)) (x2 : (⟨S1600000x2, .f32⟩ : BufTy).Contents (Elt Ideal))
    (x3 : (⟨S24x128, .f32⟩ : BufTy).Contents (Elt Ideal)) (x4 : (⟨S128, .f32⟩ : BufTy).Contents (Elt Ideal)) (x5 : (⟨S2x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    Read.val_main_v34 (F := Ideal) x0 x1 x2 x3 x4 x5 x6 x7 x8 x9 x10
      = Gine.upd (Read.val_main_v7 (F := Ideal) x0 x3 x4) (Read.val_main_v23 (F := Ideal) x0 x1 x2 x3 x4 x5 x6)
          x7 (rowOf x8) x9 (rowOf x10) := by
  funext i
  rw [upd_at]
  simp only [Read.val_main_v34_apply, Read.val_main_v31_apply, Read.val_main_v33_apply,
    Read.val_main_v30_apply, Read.val_main_v29_apply, Read.val_main_cst_1_apply,
    Read.val_main_v28_apply, Read.val_main_v25_apply, Read.val_main_v27_apply, Read.val_main_v24_apply,
    round1_layer2_left, round1_layer2_right, round1_layer2_bias, round1_layer1_left, round1_layer1_right, round1_layer1_bias]
  rfl

/-- The second round's update is the specification's, of the positive part of the first round's states and their
    aggregate. -/
theorem upd2_eq (x0 : (⟨S100000x24, .f32⟩ : BufTy).Contents (Elt Ideal)) (x1 : (⟨S2x1600000, .i32⟩ : BufTy).Contents (Elt Ideal)) (x2 : (⟨S1600000x2, .f32⟩ : BufTy).Contents (Elt Ideal))
    (x3 : (⟨S24x128, .f32⟩ : BufTy).Contents (Elt Ideal)) (x4 : (⟨S128, .f32⟩ : BufTy).Contents (Elt Ideal)) (x5 : (⟨S2x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    Read.val_main_v58 (F := Ideal) x0 x1 x2 x3 x4 x5 x6 x7 x8 x9 x10
      = Gine.upd (Read.val_main_v35 (F := Ideal) x0 x1 x2 x3 x4 x5 x6 x7 x8 x9 x10)
          (Read.val_main_v47 (F := Ideal) x0 x1 x2 x3 x4 x5 x6 x7 x8 x9 x10) x7 (rowOf x8) x9 (rowOf x10) := by
  funext i
  rw [upd_at]
  simp only [Read.val_main_v58_apply, Read.val_main_v55_apply, Read.val_main_v57_apply,
    Read.val_main_v54_apply, Read.val_main_v53_apply, Read.val_main_cst_5_apply,
    Read.val_main_v52_apply, Read.val_main_v49_apply, Read.val_main_v51_apply, Read.val_main_v48_apply,
    round2_layer2_left, round2_layer2_right, round2_layer2_bias, round2_layer1_left, round2_layer1_right, round2_layer1_bias]
  rfl

/-! ## The host operations between the kernels' stages

The aggregation (index columns from the edge list, gather, add, positive part, scatter-add into zeros) and the positive
part between the rounds are the program's operations on whole arrays; the stages are these very terms. -/

/-- The first round's aggregate, of the two feature maps. -/
theorem agg1_eq (x0 : (⟨S100000x24, .f32⟩ : BufTy).Contents (Elt Ideal)) (x1 : (⟨S2x1600000, .i32⟩ : BufTy).Contents (Elt Ideal)) (x2 : (⟨S1600000x2, .f32⟩ : BufTy).Contents (Elt Ideal))
    (x3 : (⟨S24x128, .f32⟩ : BufTy).Contents (Elt Ideal)) (x4 : (⟨S128, .f32⟩ : BufTy).Contents (Elt Ideal)) (x5 : (⟨S2x128, .f32⟩ : BufTy).Contents (Elt Ideal)) (x6 : (⟨S128, .f32⟩ : BufTy).Contents (Elt Ideal)) :
    Read.val_main_v23 (F := Ideal) x0 x1 x2 x3 x4 x5 x6
      = agg x1 (Read.val_main_v7 (F := Ideal) x0 x3 x4) (Read.val_main_v11 (F := Ideal) x2 x5 x6) := by
  unfold Read.val_main_v23 Read.val_main_v21 Read.val_main_cst Read.val_main_v22 Read.val_main_v3 Read.val_main_v2
    Read.val_main_v20 Read.val_main_call0_v0 Read.val_main_call0_cst Read.val_main_v19 Read.val_main_v18
    Read.val_main_v17 Read.val_main_v16 Read.val_main_v13 Read.val_main_v12 Read.val_main_c Read.val_main_v15
    Read.val_main_v14 Read.val_main_c_0 Read.val_main_v1 Read.val_main_v0 agg dstCol srcCol src dst
  rfl

/-- The positive part between the rounds. -/
theorem relu_eq (x0 : (⟨S100000x24, .f32⟩ : BufTy).Contents (Elt Ideal)) (x1 : (⟨S2x1600000, .i32⟩ : BufTy).Contents (Elt Ideal)) (x2 : (⟨S1600000x2, .f32⟩ : BufTy).Contents (Elt Ideal))
    (x3 : (⟨S24x128, .f32⟩ : BufTy).Contents (Elt Ideal)) (x4 : (⟨S128, .f32⟩ : BufTy).Contents (Elt Ideal)) (x5 : (⟨S2x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    Read.val_main_v35 (F := Ideal) x0 x1 x2 x3 x4 x5 x6 x7 x8 x9 x10
      = relu (Read.val_main_v34 (F := Ideal) x0 x1 x2 x3 x4 x5 x6 x7 x8 x9 x10) := by
  unfold Read.val_main_v35 Read.val_main_call1_v0 Read.val_main_call1_cst relu
  rfl

/-- The second round's aggregate, of the positive part of the first round's states and the edge features' map. -/
theorem agg2_eq (x0 : (⟨S100000x24, .f32⟩ : BufTy).Contents (Elt Ideal)) (x1 : (⟨S2x1600000, .i32⟩ : BufTy).Contents (Elt Ideal)) (x2 : (⟨S1600000x2, .f32⟩ : BufTy).Contents (Elt Ideal))
    (x3 : (⟨S24x128, .f32⟩ : BufTy).Contents (Elt Ideal)) (x4 : (⟨S128, .f32⟩ : BufTy).Contents (Elt Ideal)) (x5 : (⟨S2x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    Read.val_main_v47 (F := Ideal) x0 x1 x2 x3 x4 x5 x6 x7 x8 x9 x10
      = agg x1 (Read.val_main_v35 (F := Ideal) x0 x1 x2 x3 x4 x5 x6 x7 x8 x9 x10) (Read.val_main_v11 (F := Ideal) x2 x5 x6) := by
  unfold Read.val_main_v47 Read.val_main_v45 Read.val_main_cst_4 Read.val_main_v46 Read.val_main_v3 Read.val_main_v2
    Read.val_main_v44 Read.val_main_call2_v0 Read.val_main_call2_cst Read.val_main_v43 Read.val_main_v42
    Read.val_main_v41 Read.val_main_v40 Read.val_main_v37 Read.val_main_v36 Read.val_main_c_2 Read.val_main_v39
    Read.val_main_v38 Read.val_main_c_3 Read.val_main_v1 Read.val_main_v0 agg dstCol srcCol src dst
  rfl

/-! ## The result -/

/-- The last stage, as the network of the argument arrays: the second round's update of the positive part of the first
    round's, each over its aggregate, on the two affine feature maps. -/
theorem net_eq (x0 : (⟨S100000x24, .f32⟩ : BufTy).Contents (Elt Ideal)) (x1 : (⟨S2x1600000, .i32⟩ : BufTy).Contents (Elt Ideal)) (x2 : (⟨S1600000x2, .f32⟩ : BufTy).Contents (Elt Ideal))
    (x3 : (⟨S24x128, .f32⟩ : BufTy).Contents (Elt Ideal)) (x4 : (⟨S128, .f32⟩ : BufTy).Contents (Elt Ideal)) (x5 : (⟨S2x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    Read.val_main_v58 (F := Ideal) x0 x1 x2 x3 x4 x5 x6 x7 x8 x9 x10
      = Gine.net (agg x1) relu x0 x2 x3 (rowOf x4) x5 (rowOf x6) x7 (rowOf x8) x9 (rowOf x10) := by
  rw [upd2_eq, agg2_eq, relu_eq, upd1_eq, agg1_eq, nodeLin_eq, edgeLin_eq]
  rfl

/-- The reference's result is the network of the specification, of the argument arrays. -/
theorem result_eq (m : (ℓ : Loc nD τ sig) → Buf (Elt Ideal) ℓ) (c : Dev nD) :
    Cert.ReferenceIdeal.Value.res_main_v58 (F := Ideal) m c
      = Gine.net (agg (m ((c.tc : Thread nD τ).loc main_arg1))) relu
          (m ((c.tc : Thread nD τ).loc main_arg0)) (m ((c.tc : Thread nD τ).loc main_arg2))
          (m ((c.tc : Thread nD τ).loc main_arg3)) (rowOf (m ((c.tc : Thread nD τ).loc main_arg4)))
          (m ((c.tc : Thread nD τ).loc main_arg5)) (rowOf (m ((c.tc : Thread nD τ).loc main_arg6)))
          (m ((c.tc : Thread nD τ).loc main_arg7)) (rowOf (m ((c.tc : Thread nD τ).loc main_arg8)))
          (m ((c.tc : Thread nD τ).loc main_arg9)) (rowOf (m ((c.tc : Thread nD τ).loc main_arg10))) := by
  rw [Read.val_main_v58_eq]
  exact net_eq _ _ _ _ _ _ _ _ _ _ _

end Cert.ReferenceIdeal.RefValue

end
-- ==== Proof.Bridge.lean ====
/-
  The two programs' host pieces are the same functions. The kernel's program and the reference print the edge list's
  rows, the aggregation (gather, add, positive part, scatter-add) and the positive part between the rounds as the
  same operations over the same shapes, each program under its own names: the named functions agree by unfolding the
  names. A bias vector reaches the kernel as a reshape to one row and the reference as a broadcast to one row; both
  rows hold the vector's entry `q` at column `q`.
-/
import proofs.«136925_j70463233458547_1_alg».proof.Proof.Glue
import proofs.«136925_j70463233458547_1_alg».proof.Proof.RefValue
import Idealize.ShloMosaic.Lib.Pipeline.Value
import Idealize.ShloMosaic.Lib.ValueIdx
import Idealize.ShloMosaic.Lib.ValueLayout

noncomputable section

namespace Cert.Bridge

open Idealize.ShloMosaic Idealize.ShloMosaic.TcCoe Idealize.ShloMosaic.ValueIdx

/-- The aggregation of one round is the same function in both programs. -/
theorem agg_eq (ei : (⟨Cert.KernelIdeal.S2x1600000, .i32⟩ : BufTy).Contents (Elt Ideal)) :
    Cert.ReferenceIdeal.RefValue.agg ei = Cert.KernelIdeal.Glue.agg ei := rfl

/-- The positive part between the rounds is the same function in both programs. -/
theorem relu_eq : Cert.ReferenceIdeal.RefValue.relu = Cert.KernelIdeal.Glue.relu := rfl

/-- A bias vector as one row: the reference's broadcast and the kernel's reshape hold the same entries. -/
theorem rowOf_eq (b : (⟨Cert.KernelIdeal.S128, .f32⟩ : BufTy).Contents (Elt Ideal)) :
    Cert.ReferenceIdeal.RefValue.rowOf b = Cert.KernelIdeal.Glue.rowOf b := by
  funext i
  obtain ⟨u, q, rfl⟩ : ∃ (u : Fin 1) (q : Fin 128), i = ix2 u q := ⟨i 0, i 1, eq_ix2 i⟩
  unfold Cert.ReferenceIdeal.RefValue.rowOf Cert.KernelIdeal.Glue.rowOf
  refine (broadcastInDim_apply _ _ b (ix2 u q) (ix1 q) (fun a => ?_)).trans
    (shapeCast_a_1a_apply b _ u q).symm
  match a with
  | ⟨0, _⟩ => show q.val = if (128 : Nat) = 1 then 0 else q.val; rw [if_neg (by decide)]

end Cert.Bridge

end
-- ==== Proof.lean ====
/-
  The certificate of a two-round graph network (GINE convolutions) on 100000 nodes and 1600000 edges: the kernel
  evaluates its four dense stages — the node and edge feature maps and the two node updates — row block by row block,
  the gather, the messages and the scatter-add between them being plain host operations; the reference evaluates
  everything on whole arrays. At the ideal values both compute the network of Proof/Spec.lean of the argument arrays:
  the dense stages are row-local, so their tiled evaluation is their evaluation on the whole arrays (a matrix
  product into a zero accumulator is the plain sum of products; a change of float format is the identity), and the
  host stages between them are the same operations in both programs. No law used needs the inputs finite.

  The three frames are the generated ones (the reference's is its generated run with the result dropped); the ideal
  pass rewrote nothing, so the kernel's idealization is its own text; the value claim sets the kernel's run, with its
  result buffer named, beside the reference's generated run.
-/
import proofs.«136925_j70463233458547_1_alg».proof.Defs
import proofs.«136925_j70463233458547_1_alg».proof.Proof.Gen.Kernel.Frame
import proofs.«136925_j70463233458547_1_alg».proof.Proof.Gen.KernelIdeal.Frame
import proofs.«136925_j70463233458547_1_alg».proof.Proof.Gen.ReferenceIdeal.Run
import proofs.«136925_j70463233458547_1_alg».proof.Proof.Gen.Pre_finite_inputs
import proofs.«136925_j70463233458547_1_alg».proof.Proof.RunNamed
import proofs.«136925_j70463233458547_1_alg».proof.Proof.KernelValue
import proofs.«136925_j70463233458547_1_alg».proof.Proof.RefValue
import proofs.«136925_j70463233458547_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the result at the network of the argument arrays: the kernel's by the region and boundary
    lemmas, the reference's by its run read one operation at a time; the two programs' host pieces are the same
    functions, and the arguments agree. -/
theorem algebraic : Cert.algebraic_KernelIdeal_ReferenceIdeal := by
  intro m ρ m' ρ' _ hagree
  refine ⟨fun c => Gine.net (Cert.KernelIdeal.Glue.agg (m ((c.tc : Thread Cert.KernelIdeal.nD Cert.KernelIdeal.τ).loc Cert.KernelIdeal.main_arg1))) Cert.KernelIdeal.Glue.relu (m ((c.tc : Thread Cert.KernelIdeal.nD Cert.KernelIdeal.τ).loc Cert.KernelIdeal.main_arg0)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (Cert.KernelIdeal.Glue.rowOf (m ((c.tc : Thread Cert.KernelIdeal.nD Cert.KernelIdeal.τ).loc Cert.KernelIdeal.main_arg4))) (m ((c.tc : Thread Cert.KernelIdeal.nD Cert.KernelIdeal.τ).loc Cert.KernelIdeal.main_arg5)) (Cert.KernelIdeal.Glue.rowOf (m ((c.tc : Thread Cert.KernelIdeal.nD Cert.KernelIdeal.τ).loc Cert.KernelIdeal.main_arg6)))
      (m ((c.tc : Thread Cert.KernelIdeal.nD Cert.KernelIdeal.τ).loc Cert.KernelIdeal.main_arg7)) (Cert.KernelIdeal.Glue.rowOf (m ((c.tc : Thread Cert.KernelIdeal.nD Cert.KernelIdeal.τ).loc Cert.KernelIdeal.main_arg8))) (m ((c.tc : Thread Cert.KernelIdeal.nD Cert.KernelIdeal.τ).loc Cert.KernelIdeal.main_arg9)) (Cert.KernelIdeal.Glue.rowOf (m ((c.tc : Thread Cert.KernelIdeal.nD Cert.KernelIdeal.τ).loc Cert.KernelIdeal.main_arg10))), ?_, ?_⟩
  · exact (θ_run Cert.KernelIdeal.defs _ _).mono
      (fun r h c => ⟨(h c).1.trans (Cert.KernelIdeal.KernelValue.result_eq m ρ c), (h c).2⟩)
      (Cert.KernelIdeal.RunNamed.run (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10⟩ := hagree c
    rw [Cert.ReferenceIdeal.RefValue.result_eq m' c, a0, a1, a2, a3, a4, a5, a6, a7, a8, a9, a10,
      Cert.Bridge.agg_eq, Cert.Bridge.relu_eq, Cert.Bridge.rowOf_eq, Cert.Bridge.rowOf_eq, Cert.Bridge.rowOf_eq,
      Cert.Bridge.rowOf_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
